-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_v48 : IVec S_ 1) (main_v50 : IVec S2x1600000 1) : IVec S_ 1 :=
  let main_c_19 : IVec S_ 32 := constantI S_ 32 100000#32
  let main_v51 : IVec S2x1600000 32 := broadcastInDim S2x1600000 ![] bcast_S_S2x1600000 main_c_19
  let main_v52 : IVec S2x1600000 1 := cmpi .slt main_arg1 main_v51
  let main_v53 : IVec S2x1600000 1 := andi main_v50 main_v52
  let main_c_20 : IVec S_ 1 := constantI S_ 1 1#1
  let main_v54 : IVec S_ 1 := (fun x v => Host.reduce IntOp.andi x v reducesTo_S2x1600000_S_d0_1 h_S_) main_v53 main_c_20
  let main_v55 : IVec S_ 1 := andi main_v48 main_v54
  main_v55

def fn_part2 {F : FTy → Type} [FloatOps F] (main_arg1 : IVec S2x1600000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S2x1600000 32 := broadcastInDim S2x1600000 ![] bcast_S_S2x1600000 main_c_18
  let main_v50 : IVec S2x1600000 1 := cmpi .sge main_arg1 main_v49
  fn_part3 (F := F) main_arg1 main_v48 main_v50

def fn_part1 {F : FTy → Type} [FloatOps F] (main_arg1 : IVec S2x1600000 32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x64 .f32) (main_arg1 : IVec S2x1600000 32) (main_arg2 : FVec F S1600000x32 .f32) (main_arg3 : FVec F S160x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x64 .f32 := Host.absf main_arg3
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S8000x64 : Shape := ⟨2, ![8000, 64]⟩
abbrev S8000x32 : Shape := ⟨2, ![8000, 32]⟩
abbrev S32x64 : Shape := ⟨2, ![32, 64]⟩
abbrev S5000x64 : Shape := ⟨2, ![5000, 64]⟩

abbrev nBuf : Space → Nat
  | .hbm => 74
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1, .i32⟩
  | .hbm, ⟨24, _⟩ => ⟨S_, .i32⟩
  | .hbm, ⟨25, _⟩ => ⟨S1600000x1, .i32⟩
  | .hbm, ⟨26, _⟩ => ⟨S1600000x1, .i1⟩
  | .hbm, ⟨27, _⟩ => ⟨S1x1, .i32⟩
  | .hbm, ⟨28, _⟩ => ⟨S1600000x1, .i32⟩
  | .hbm, ⟨29, _⟩ => ⟨S1600000x1, .i1⟩
  | .hbm, ⟨30, _⟩ => ⟨S1600000x1, .i1⟩
  | .hbm, ⟨31, _⟩ => ⟨S_, .i1⟩
  | .hbm, ⟨32, _⟩ => ⟨S1600000, .i1⟩
  | .hbm, ⟨33, _⟩ => ⟨S1600000x64, .f32⟩
  | .hbm, ⟨34, _⟩ => ⟨S1600000x64, .i1⟩
  | .hbm, ⟨35, _⟩ => ⟨S_, .f32⟩
  | .hbm, ⟨36, _⟩ => ⟨S1600000x64, .f32⟩
  | .hbm, ⟨37, _⟩ => ⟨S1600000x64, .f32⟩
  | .hbm, ⟨38, _⟩ => ⟨S1600000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1, .i32⟩
  | .hbm, ⟨48, _⟩ => ⟨S_, .i32⟩
  | .hbm, ⟨49, _⟩ => ⟨S1600000x1, .i32⟩
  | .hbm, ⟨50, _⟩ => ⟨S1600000x1, .i1⟩
  | .hbm, ⟨51, _⟩ => ⟨S1x1, .i32⟩
  | .hbm, ⟨52, _⟩ => ⟨S1600000x1, .i32⟩
  | .hbm, ⟨53, _⟩ => ⟨S1600000x1, .i1⟩
  | .hbm, ⟨54, _⟩ => ⟨S1600000x1, .i1⟩
  | .hbm, ⟨55, _⟩ => ⟨S_, .i1⟩
  | .hbm, ⟨56, _⟩ => ⟨S1600000, .i1⟩
  | .hbm, ⟨57, _⟩ => ⟨S1600000x64, .f32⟩
  | .hbm, ⟨58, _⟩ => ⟨S1600000x64, .i1⟩
  | .hbm, ⟨59, _⟩ => ⟨S_, .f32⟩
  | .hbm, ⟨60, _⟩ => ⟨S1600000x64, .f32⟩
  | .hbm, ⟨61, _⟩ => ⟨S1600000x64, .f32⟩
  | .hbm, ⟨62, _⟩ => ⟨S1600000x64, .bf16⟩
  | .hbm, ⟨63, _⟩ => ⟨S1x64, .f32⟩
  | .hbm, ⟨64, _⟩ => ⟨S1x64, .f32⟩
  | .hbm, ⟨65, _⟩ => ⟨S1600000x64, .bf16⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S1x64, .f32⟩
  | .hbm, ⟨72, _⟩ => ⟨S1x64, .f32⟩
  | .hbm, ⟨73, _⟩ => ⟨S100000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x32, .f32⟩
  | .local _ .vmem, ⟨5, _⟩ => ⟨S8000x32, .f32⟩
  | .local _ .vmem, ⟨6, _⟩ => ⟨S160x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S8000x64, .bf16⟩
  | .local _ .vmem, ⟨11, _⟩ => ⟨S8000x64, .bf16⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bitsLt_bf16_f32 : FTy.bits .bf16 < FTy.bits .f32
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  inb_S160x64_S160x64_0_0 : ∀ a, (![0, 0] : Fin 2 → Nat) a + S160x64.size a ≤ S160x64.size a
  h_S160x64 : 0 < S160x64.numel
  slices_S160x64_o0_0_S64x64 : S160x64.Slices ![0, 0] S64x64
  slices_S160x64_o64_0_S64x64 : S160x64.Slices ![64, 0] S64x64
  slices_S160x64_o128_0_S32x64 : S160x64.Slices ![128, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  packedbf16_S8000x64_S8000x64_0_0 : (Rect.unit (s := S8000x64) ![0, 0] S8000x64.size inb_S8000x64_S8000x64_0_0).PackedRows (EltTy.packing .bf16)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .bf16 = 32 ∨ (Rect.block (s := S1600000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .bf16 = 32 ∨ (Rect.block (s := S1600000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x64.size a ≤ S160x64.size a
  hwx0_3 : ∀ i : grid0.Coords, EltTy.bits .f32 = 32 ∨ (Rect.block (s := S160x64) S160x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1600000x64.size a
  hwx0_7 : ∀ i : grid0.Coords, EltTy.bits .bf16 = 32 ∨ (Rect.block (s := S1600000x64) S8000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v5) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S160x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1x64 : Shape := ⟨2, ![1, 64]⟩
abbrev S100000x128 : Shape := ⟨2, ![100000, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x160, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S1600000x64, .f32⟩
  | .hbm, ⟨42, _⟩ => ⟨S1x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x128, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x160_S160x64_S1600000x64_1_0_0_1_n_n_wf : DotDims.WF S1600000x160 S160x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One message-passing layer, as mathematics.

  An edge's message is a two-layer network of one row: the hidden entry `k` is
    max (xs · W1[0:64, k] + xt · W1[64:128, k] + xe · W1[128:160, k] + b1 k, 0)
  over the source node's row `xs`, the target node's row `xt` and the edge's own feature row `xe`, and the
  message's entry `q` is  (∑ k, hidden k * W2 k q) + b2 q.  A node's update is the same network over its own row
  and its aggregated messages, with a first weight matrix of 64 + 64 rows.

  The same two networks can be spelt over ONE concatenated row (`catRow`): a sum over the 160 (or 128) joined
  entries.  The two spellings agree because a finite sum over the joined range is the sum of the sums over its
  pieces — a regrouping of one sum in a commutative monoid, which holds on the extended reals as they stand,
  infinities included: nothing here cancels or distributes, so no finiteness is used.
-/
import Idealize.ShloMosaic.PureOps.Ideal
import Idealize.ShloMosaic.Lib.ValueIdx
import Mathlib.Algebra.BigOperators.Fin

noncomputable section

namespace MsgPass

open Idealize.ShloMosaic Idealize.ShloMosaic.ValueIdx

/-! ## A sum over a joined range is the sum over its pieces -/

/-- A sum over 64 + 64 entries is the sum over the first 64 plus the sum over the last 64. -/
theorem sum_fin128 {M : Type} [AddCommMonoid M] (f : Fin 128 → M) :
    ∑ a : Fin 128, f a = (∑ a : Fin 64, f ⟨a.val, by omega⟩) + ∑ a : Fin 64, f ⟨64 + a.val, by omega⟩ := by
  have h := Fin.sum_univ_add (a := 64) (b := 64) (fun i : Fin (64 + 64) => f ⟨i.val, i.isLt⟩)
  exact h

/-- A sum over 64 + 64 + 32 entries is the sum of the sums over the three pieces. -/
theorem sum_fin160 {M : Type} [AddCommMonoid M] (f : Fin 160 → M) :
    ∑ a : Fin 160, f a
      = ((∑ a : Fin 64, f ⟨a.val, by omega⟩) + ∑ a : Fin 64, f ⟨64 + a.val, by omega⟩) + ∑ a : Fin 32, f ⟨128 + a.val, by omega⟩ := by
  have h := Fin.sum_univ_add (a := 128) (b := 32) (fun i : Fin (128 + 32) => f ⟨i.val, i.isLt⟩)
  refine h.trans ?_
  exact congrArg (· + ∑ a : Fin 32, f ⟨128 + a.val, by omega⟩) (sum_fin128 fun i : Fin 128 => f ⟨i.val, by omega⟩)

/-! ## The network over one concatenated row -/

/-- Hidden entry `k` of a two-layer network over one row of `n` entries. -/
def catHidden {n : Nat} (x : Fin n → EReal) (W1 : Fin n → Fin 64 → EReal) (b1 : Fin 64 → EReal) (k : Fin 64) : EReal :=
  max ((∑ a : Fin n, x a * W1 a k) + b1 k) 0

/-- Output entry `q` of the two-layer network over one row of `n` entries. -/
def catRow {n : Nat} (x : Fin n → EReal) (W1 : Fin n → Fin 64 → EReal) (b1 : Fin 64 → EReal)
    (W2 : Fin 64 → Fin 64 → EReal) (b2 : Fin 64 → EReal) (q : Fin 64) : EReal :=
  (∑ k : Fin 64, catHidden x W1 b1 k * W2 k q) + b2 q

/-- Three rows of 64, 64 and 32 entries laid end to end. -/
def cat3 (xs xt : Fin 64 → EReal) (xe : Fin 32 → EReal) : Fin 160 → EReal := fun a =>
  if h : a.val < 64 then xs ⟨a.val, h⟩
  else if h2 : a.val < 128 then xt ⟨a.val - 64, by omega⟩
  else xe ⟨a.val - 128, by omega⟩

/-- Two rows of 64 entries laid end to end. -/
def cat2 (xh xa : Fin 64 → EReal) : Fin 128 → EReal := fun a =>
  if h : a.val < 64 then xh ⟨a.val, h⟩ else xa ⟨a.val - 64, by omega⟩

/-! ## The edge network, piece by piece -/

/-- Hidden entry `k` of an edge's network: the first weight matrix's three row blocks against the three rows. -/
def edgeHidden (xs xt : Fin 64 → EReal) (xe : Fin 32 → EReal) (W1 : Fin 160 → Fin 64 → EReal) (b1 : Fin 64 → EReal)
    (k : Fin 64) : EReal :=
  max (((∑ a : Fin 64, xs a * W1 ⟨a.val, by omega⟩ k) + (∑ a : Fin 64, xt a * W1 ⟨64 + a.val, by omega⟩ k)
        + ∑ a : Fin 32, xe a * W1 ⟨128 + a.val, by omega⟩ k) + b1 k) 0

/-- Entry `q` of an edge's message. -/
def edgeRow (xs xt : Fin 64 → EReal) (xe : Fin 32 → EReal) (W1 : Fin 160 → Fin 64 → EReal) (b1 : Fin 64 → EReal)
    (W2 : Fin 64 → Fin 64 → EReal) (b2 : Fin 64 → EReal) (q : Fin 64) : EReal :=
  (∑ k : Fin 64, edgeHidden xs xt xe W1 b1 k * W2 k q) + b2 q

/-- The network over the concatenated row is the network over its three pieces. -/
theorem catRow_cat3 (xs xt : Fin 64 → EReal) (xe : Fin 32 → EReal) (W1 : Fin 160 → Fin 64 → EReal) (b1 : Fin 64 → EReal)
    (W2 : Fin 64 → Fin 64 → EReal) (b2 : Fin 64 → EReal) (q : Fin 64) :
    catRow (cat3 xs xt xe) W1 b1 W2 b2 q = edgeRow xs xt xe W1 b1 W2 b2 q := by
  unfold catRow edgeRow
  refine congrArg (· + b2 q) (Finset.sum_congr rfl fun k _ => congrArg (· * W2 k q) ?_)
  unfold catHidden edgeHidden
  refine congrArg (fun z => max (z + b1 k) 0) ?_
  rw [sum_fin160]
  have e1 : ∀ a : Fin 64, cat3 xs xt xe ⟨a.val, by omega⟩ = xs a := fun a => by
    unfold cat3; rw [dif_pos (show a.val < 64 from a.isLt)]
  have e2 : ∀ a : Fin 64, cat3 xs xt xe ⟨64 + a.val, by omega⟩ = xt a := fun a => by
    unfold cat3
    rw [dif_neg (show ¬ (64 + a.val < 64) by omega), dif_pos (show 64 + a.val < 128 by omega)]
    exact congrArg xt (Fin.ext (by show 64 + a.val - 64 = a.val; omega))
  have e3 : ∀ a : Fin 32, cat3 xs xt xe ⟨128 + a.val, by omega⟩ = xe a := fun a => by
    unfold cat3
    rw [dif_neg (show ¬ (128 + a.val < 64) by omega), dif_neg (show ¬ (128 + a.val < 128) by omega)]
    exact congrArg xe (Fin.ext (by show 128 + a.val - 128 = a.val; omega))
  simp only [e1, e2, e3]

/-! ## The update network, piece by piece -/

/-- Hidden entry `k` of a node's update: the first weight matrix's two row blocks against the node's row and its
    aggregated messages. -/
def updHidden (xh xa : Fin 64 → EReal) (W1 : Fin 128 → Fin 64 → EReal) (b1 : Fin 64 → EReal) (k : Fin 64) : EReal :=
  max (((∑ a : Fin 64, xh a * W1 ⟨a.val, by omega⟩ k) + ∑ a : Fin 64, xa a * W1 ⟨64 + a.val, by omega⟩ k) + b1 k) 0

/-- Entry `q` of a node's updated row. -/
def updRow (xh xa : Fin 64 → EReal) (W1 : Fin 128 → Fin 64 → EReal) (b1 : Fin 64 → EReal)
    (W2 : Fin 64 → Fin 64 → EReal) (b2 : Fin 64 → EReal) (q : Fin 64) : EReal :=
  (∑ k : Fin 64, updHidden xh xa W1 b1 k * W2 k q) + b2 q

/-- The network over the concatenated row is the network over its two pieces. -/
theorem catRow_cat2 (xh xa : Fin 64 → EReal) (W1 : Fin 128 → Fin 64 → EReal) (b1 : Fin 64 → EReal)
    (W2 : Fin 64 → Fin 64 → EReal) (b2 : Fin 64 → EReal) (q : Fin 64) :
    catRow (cat2 xh xa) W1 b1 W2 b2 q = updRow xh xa W1 b1 W2 b2 q := by
  unfold catRow updRow
  refine congrArg (· + b2 q) (Finset.sum_congr rfl fun k _ => congrArg (· * W2 k q) ?_)
  unfold catHidden updHidden
  refine congrArg (fun z => max (z + b1 k) 0) ?_
  rw [sum_fin128]
  have e1 : ∀ a : Fin 64, cat2 xh xa ⟨a.val, by omega⟩ = xh a := fun a => by
    unfold cat2; rw [dif_pos (show a.val < 64 from a.isLt)]
  have e2 : ∀ a : Fin 64, cat2 xh xa ⟨64 + a.val, by omega⟩ = xa a := fun a => by
    unfold cat2
    rw [dif_neg (show ¬ (64 + a.val < 64) by omega)]
    exact congrArg xa (Fin.ext (by show 64 + a.val - 64 = a.val; omega))
  simp only [e1, e2]

/-! ## Whole arrays: every edge's message, every node's update -/

/-- Every edge's message: row `e` of the result is the edge network of row `e` of the gathered source rows, of the
    gathered target rows and of the edge features. -/
def edgeArr (hs ht : (⟨2, ![1600000, 64]⟩ : Shape).Idx → EReal) (ef : (⟨2, ![1600000, 32]⟩ : Shape).Idx → EReal)
    (W1 : (⟨2, ![160, 64]⟩ : Shape).Idx → EReal) (b1 : Fin 64 → EReal)
    (W2 : (⟨2, ![64, 64]⟩ : Shape).Idx → EReal) (b2 : Fin 64 → EReal) :
    (⟨2, ![1600000, 64]⟩ : Shape).Idx → EReal := fun j =>
  edgeRow (fun a => hs (ix2 (⟨(j 0).val, idx2_lt0 j⟩ : Fin 1600000) a)) (fun a => ht (ix2 (⟨(j 0).val, idx2_lt0 j⟩ : Fin 1600000) a))
    (fun a => ef (ix2 (⟨(j 0).val, idx2_lt0 j⟩ : Fin 1600000) a)) (fun a k => W1 (ix2 a k)) b1
    (fun k q => W2 (ix2 k q)) b2 ⟨(j 1).val, idx2_lt1 j⟩

/-- Every node's update: row `n` of the result is the update network of the node's row and its aggregated messages. -/
def updArr (h agg : (⟨2, ![100000, 64]⟩ : Shape).Idx → EReal)
    (W1 : (⟨2, ![128, 64]⟩ : Shape).Idx → EReal) (b1 : Fin 64 → EReal)
    (W2 : (⟨2, ![64, 64]⟩ : Shape).Idx → EReal) (b2 : Fin 64 → EReal) :
    (⟨2, ![100000, 64]⟩ : Shape).Idx → EReal := fun j =>
  updRow (fun a => h (ix2 (⟨(j 0).val, idx2_lt0 j⟩ : Fin 100000) a)) (fun a => agg (ix2 (⟨(j 0).val, idx2_lt0 j⟩ : Fin 100000) a))
    (fun a k => W1 (ix2 a k)) b1 (fun k q => W2 (ix2 k q)) b2 ⟨(j 1).val, idx2_lt1 j⟩

theorem edgeArr_ix2 (hs ht : (⟨2, ![1600000, 64]⟩ : Shape).Idx → EReal) (ef : (⟨2, ![1600000, 32]⟩ : Shape).Idx → EReal)
    (W1 : (⟨2, ![160, 64]⟩ : Shape).Idx → EReal) (b1 : Fin 64 → EReal)
    (W2 : (⟨2, ![64, 64]⟩ : Shape).Idx → EReal) (b2 : Fin 64 → EReal) (e : Fin 1600000) (q : Fin 64) :
    edgeArr hs ht ef W1 b1 W2 b2 (ix2 e q)
      = edgeRow (fun a => hs (ix2 e a)) (fun a => ht (ix2 e a)) (fun a => ef (ix2 e a)) (fun a k => W1 (ix2 a k))
          b1 (fun k q => W2 (ix2 k q)) b2 q := rfl

theorem updArr_ix2 (h agg : (⟨2, ![100000, 64]⟩ : Shape).Idx → EReal)
    (W1 : (⟨2, ![128, 64]⟩ : Shape).Idx → EReal) (b1 : Fin 64 → EReal)
    (W2 : (⟨2, ![64, 64]⟩ : Shape).Idx → EReal) (b2 : Fin 64 → EReal) (n : Fin 100000) (q : Fin 64) :
    updArr h agg W1 b1 W2 b2 (ix2 n q)
      = updRow (fun a => h (ix2 n a)) (fun a => agg (ix2 n a)) (fun a k => W1 (ix2 a k)) b1
          (fun k q => W2 (ix2 k q)) b2 q := rfl

end MsgPass

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KPay.lean ====
/-
  The two kernel bodies' stored values, read at one entry.

  Each body computes, for every row `p` of its block, a two-layer network of that row alone; entry `(p, q)` of
  what it stores is `MsgPass.edgeRow` (first body) or `MsgPass.updRow` (second body) of row `p` of the loaded
  blocks and of the loaded weights.

  On the extended reals a change of float format is the identity, a matrix product into the zero block is the plain
  sum of products over the shared extent, a block of rows cut from the first weight matrix at row offset `o` reads
  row `o + a` of it, a one-row bias spread down the rows reads its one row, and the rectifier is the maximum with 0.
  The body adds its partial products in the order the network's hidden entry is written in, so each piece is read
  where it stands and nothing is regrouped.
-/
import proofs.«418739_j28887950033284_2_alg».proof.Proof.Gen.KernelIdeal.Skeleton
import proofs.«418739_j28887950033284_2_alg».proof.Proof.Spec
import proofs.«418739_j28887950033284_2_alg».proof.Proof.LibPlainDot
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-- A matrix product into the zero block, read at `(p, q)`: the plain sum over the shared extent. -/
theorem mm_apply {R K C : Nat} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    FloatOps.matmul d none l r (constant (F := Ideal) ⟨2, ![R, C]⟩ .f32 0x00000000#32) (ix2 p q)
      = ∑ k : Fin K, l (ix2 p k) * r (ix2 k q) :=
  (Ideal.matmul_constant_zero_apply d none l r (ix2 p q)).trans
    (PlainDot.sum_eq (M := EReal) d hlb hln hlc hrb hrn hrc l r p q)

/-- The hidden block of the edge body, as the body computes it. -/
def k0_hid (v0 v2 : Vec Ideal S8000x64 .bf16) (v4 : Vec Ideal S8000x32 .f32) (v6 : Vec Ideal S160x64 .f32)
    (v11 : Vec Ideal S1x64 .f32) : FVec Ideal S8000x64 .f32 :=
  have v1 : FVec Ideal S8000x64 .bf16 := shapeCast S8000x64 v0 shapeCasts_S8000x64_S8000x64
  have v3 : FVec Ideal S8000x64 .bf16 := shapeCast S8000x64 v2 shapeCasts_S8000x64_S8000x64
  have v5 : FVec Ideal S8000x32 .bf16 := truncf .bf16 v4 bitsLt_bf16_f32
  have v7 : FVec Ideal S160x64 .bf16 := truncf .bf16 v6 bitsLt_bf16_f32
  have v8 : FVec Ideal S64x64 .bf16 := extractStridedSlice S64x64 ![0, 0] v7 slices_S160x64_o0_0_S64x64
  have v9 : FVec Ideal S64x64 .bf16 := extractStridedSlice S64x64 ![64, 0] v7 slices_S160x64_o64_0_S64x64
  have v10 : FVec Ideal S32x64 .bf16 := extractStridedSlice S32x64 ![128, 0] v7 slices_S160x64_o128_0_S32x64
  have v12 : FVec Ideal S1x64 .f32 := shapeCast S1x64 v11 shapeCasts_S1x64_S1x64
  have cst : FVec Ideal S8000x64 .f32 := constant S8000x64 .f32 0x00000000#32
  have v13 : FVec Ideal S8000x64 .f32 := matmul dot_S8000x64_S64x64_S8000x64_1_0_0_1_n_n none v1 v8 cst
  have v14 : FVec Ideal S8000x64 .f32 := matmul dot_S8000x64_S64x64_S8000x64_1_0_0_1_n_n none v3 v9 cst
  have v15 : FVec Ideal S8000x64 .f32 := addf v13 v14
  have v16 : FVec Ideal S8000x64 .f32 := matmul dot_S8000x32_S32x64_S8000x64_1_0_0_1_n_n none v5 v10 cst
  have v17 : FVec Ideal S8000x64 .f32 := addf v15 v16
  have v18 : FVec Ideal S8000x64 .f32 := broadcastTo S8000x64 v12 broadcasts_S1x64_S8000x64
  have v19 : FVec Ideal S8000x64 .f32 := addf v17 v18
  have cst_11 : Ideal .f32 := Scalar.ofBits .f32 0x00000000#32
  have v20 : FVec Ideal S8000x64 .f32 := broadcast S8000x64 cst_11
  maximumf v19 v20

/-- Entry `(p, k)` of the edge body's hidden block is hidden entry `k` of the edge network of row `p`. -/
theorem k0_hid_apply (v0 v2 : Vec Ideal S8000x64 .bf16) (v4 : Vec Ideal S8000x32 .f32) (v6 : Vec Ideal S160x64 .f32)
    (v11 : Vec Ideal S1x64 .f32) (p : Fin 8000) (k : Fin 64) :
    k0_hid v0 v2 v4 v6 v11 (ix2 p k)
      = MsgPass.edgeHidden (fun a => v0 (ix2 p a)) (fun a => v2 (ix2 p a)) (fun a => v4 (ix2 p a))
          (fun a k => v6 (ix2 a k)) (fun k => v11 (ix2 (0 : Fin 1) k)) k := by
  unfold MsgPass.edgeHidden
  show max (_ + _ + _ + _) (Ideal.ofBits .f32 0x00000000#32) = _
  refine congrArg₂ max (congrArg₂ (· + ·) (congrArg₂ (· + ·) (congrArg₂ (· + ·) ?_ ?_) ?_) ?_) Ideal.ofBits_zero_f32
  · -- the source rows against the weight rows 0 … 63
    refine (mm_apply _ rfl rfl rfl rfl rfl rfl _ _ p k).trans (Finset.sum_congr rfl fun a _ => congrArg₂ (· * ·) ?_ ?_)
    · exact congrFun (shapeCast_self v0 _) _
    · exact slice2_axis0_apply 0 _ _ a k ⟨a.val, by omega⟩ (Nat.zero_add _).symm
  · -- the target rows against the weight rows 64 … 127
    refine (mm_apply _ rfl rfl rfl rfl rfl rfl _ _ p k).trans (Finset.sum_congr rfl fun a _ => congrArg₂ (· * ·) ?_ ?_)
    · exact congrFun (shapeCast_self v2 _) _
    · exact slice2_axis0_apply 64 _ _ a k ⟨64 + a.val, by omega⟩ rfl
  · -- the edge features against the weight rows 128 … 159
    refine (mm_apply _ rfl rfl rfl rfl rfl rfl _ _ p k).trans (Finset.sum_congr rfl fun a _ => congrArg₂ (· * ·) rfl ?_)
    exact slice2_axis0_apply 128 _ _ a k ⟨128 + a.val, by omega⟩ rfl
  · -- the bias row, the same in every row
    exact (broadcastTo_1b_ab_apply _ _ p k).trans (congrFun (shapeCast_self v11 _) _)

/-- Entry `(p, q)` of the edge body's stored block is the edge network of row `p`. -/
theorem k0_pay1_apply (v0 v2 : Vec Ideal S8000x64 .bf16) (v4 : Vec Ideal S8000x32 .f32) (v6 : Vec Ideal S160x64 .f32)
    (v11 : Vec Ideal S1x64 .f32) (v22 : Vec Ideal S64x64 .f32) (v24 : Vec Ideal S1x64 .f32) (p : Fin 8000) (q : Fin 64) :
    k0_pay1 (F := Ideal) v0 v2 v4 v6 v11 v22 v24 (ix2 p q)
      = MsgPass.edgeRow (fun a => v0 (ix2 p a)) (fun a => v2 (ix2 p a)) (fun a => v4 (ix2 p a)) (fun a k => v6 (ix2 a k))
          (fun k => v11 (ix2 (0 : Fin 1) k)) (fun k j => v22 (ix2 k j)) (fun j => v24 (ix2 (0 : Fin 1) j)) q := by
  show FloatOps.matmul (F := Ideal) dot_S8000x64_S64x64_S8000x64_1_0_0_1_n_n none
        (truncf .bf16 (k0_hid v0 v2 v4 v6 v11) bitsLt_bf16_f32 : FVec Ideal S8000x64 .bf16)
        (truncf .bf16 v22 bitsLt_bf16_f32 : FVec Ideal S64x64 .bf16) (constant S8000x64 .f32 0x00000000#32) (ix2 p q)
      + broadcastTo S8000x64 (shapeCast S1x64 v24 shapeCasts_S1x64_S1x64 : FVec Ideal S1x64 .f32) broadcasts_S1x64_S8000x64 (ix2 p q) = _
  unfold MsgPass.edgeRow
  refine congrArg₂ (· + ·) ?_ ?_
  · refine (mm_apply _ rfl rfl rfl rfl rfl rfl _ _ p q).trans (Finset.sum_congr rfl fun k _ => congrArg₂ (· * ·) ?_ rfl)
    exact k0_hid_apply v0 v2 v4 v6 v11 p k
  · exact (broadcastTo_1b_ab_apply _ _ p q).trans (congrFun (shapeCast_self v24 _) _)

/-- The hidden block of the update body, as the body computes it. -/
def k1_hid (v0 v2 : Vec Ideal S5000x64 .f32) (v5 : Vec Ideal S128x64 .f32) (v9 : Vec Ideal S1x64 .f32) :
    FVec Ideal S5000x64 .f32 :=
  have v1 : FVec Ideal S5000x64 .bf16 := truncf .bf16 v0 bitsLt_bf16_f32
  have v3 : FVec Ideal S5000x64 .f32 := shapeCast S5000x64 v2 shapeCasts_S5000x64_S5000x64
  have v4 : FVec Ideal S5000x64 .bf16 := truncf .bf16 v3 bitsLt_bf16_f32
  have v6 : FVec Ideal S128x64 .bf16 := truncf .bf16 v5 bitsLt_bf16_f32
  have v7 : FVec Ideal S64x64 .bf16 := extractStridedSlice S64x64 ![0, 0] v6 slices_S128x64_o0_0_S64x64
  have v8 : FVec Ideal S64x64 .bf16 := extractStridedSlice S64x64 ![64, 0] v6 slices_S128x64_o64_0_S64x64
  have v10 : FVec Ideal S1x64 .f32 := shapeCast S1x64 v9 shapeCasts_S1x64_S1x64
  have cst : FVec Ideal S5000x64 .f32 := constant S5000x64 .f32 0x00000000#32
  have v11 : FVec Ideal S5000x64 .f32 := matmul dot_S5000x64_S64x64_S5000x64_1_0_0_1_n_n none v1 v7 cst
  have v12 : FVec Ideal S5000x64 .f32 := matmul dot_S5000x64_S64x64_S5000x64_1_0_0_1_n_n none v4 v8 cst
  have v13 : FVec Ideal S5000x64 .f32 := addf v11 v12
  have v14 : FVec Ideal S5000x64 .f32 := broadcastTo S5000x64 v10 broadcasts_S1x64_S5000x64
  have v15 : FVec Ideal S5000x64 .f32 := addf v13 v14
  have cst_8 : Ideal .f32 := Scalar.ofBits .f32 0x00000000#32
  have v16 : FVec Ideal S5000x64 .f32 := broadcast S5000x64 cst_8
  maximumf v15 v16

/-- Entry `(p, k)` of the update body's hidden block is hidden entry `k` of the update network of row `p`. -/
theorem k1_hid_apply (v0 v2 : Vec Ideal S5000x64 .f32) (v5 : Vec Ideal S128x64 .f32) (v9 : Vec Ideal S1x64 .f32)
    (p : Fin 5000) (k : Fin 64) :
    k1_hid v0 v2 v5 v9 (ix2 p k)
      = MsgPass.updHidden (fun a => v0 (ix2 p a)) (fun a => v2 (ix2 p a)) (fun a k => v5 (ix2 a k))
          (fun k => v9 (ix2 (0 : Fin 1) k)) k := by
  unfold MsgPass.updHidden
  show max (_ + _ + _) (Ideal.ofBits .f32 0x00000000#32) = _
  refine congrArg₂ max (congrArg₂ (· + ·) (congrArg₂ (· + ·) ?_ ?_) ?_) Ideal.ofBits_zero_f32
  · -- the node's own row against the weight rows 0 … 63
    refine (mm_apply _ rfl rfl rfl rfl rfl rfl _ _ p k).trans (Finset.sum_congr rfl fun a _ => congrArg₂ (· * ·) rfl ?_)
    exact slice2_axis0_apply 0 _ _ a k ⟨a.val, by omega⟩ (Nat.zero_add _).symm
  · -- the aggregated messages against the weight rows 64 … 127
    refine (mm_apply _ rfl rfl rfl rfl rfl rfl _ _ p k).trans (Finset.sum_congr rfl fun a _ => congrArg₂ (· * ·) ?_ ?_)
    · exact congrFun (shapeCast_self v2 _) _
    · exact slice2_axis0_apply 64 _ _ a k ⟨64 + a.val, by omega⟩ rfl
  · -- the bias row, the same in every row
    exact (broadcastTo_1b_ab_apply _ _ p k).trans (congrFun (shapeCast_self v9 _) _)

/-- Entry `(p, q)` of the update body's stored block is the update network of row `p`. -/
theorem k1_pay1_apply (v0 v2 : Vec Ideal S5000x64 .f32) (v5 : Vec Ideal S128x64 .f32) (v9 : Vec Ideal S1x64 .f32)
    (v18 : Vec Ideal S64x64 .f32) (v20 : Vec Ideal S1x64 .f32) (p : Fin 5000) (q : Fin 64) :
    k1_pay1 (F := Ideal) v0 v2 v5 v9 v18 v20 (ix2 p q)
      = MsgPass.updRow (fun a => v0 (ix2 p a)) (fun a => v2 (ix2 p a)) (fun a k => v5 (ix2 a k))
          (fun k => v9 (ix2 (0 : Fin 1) k)) (fun k j => v18 (ix2 k j)) (fun j => v20 (ix2 (0 : Fin 1) j)) q := by
  show FloatOps.matmul (F := Ideal) dot_S5000x64_S64x64_S5000x64_1_0_0_1_n_n none
        (truncf .bf16 (k1_hid v0 v2 v5 v9) bitsLt_bf16_f32 : FVec Ideal S5000x64 .bf16)
        (truncf .bf16 v18 bitsLt_bf16_f32 : FVec Ideal S64x64 .bf16) (constant S5000x64 .f32 0x00000000#32) (ix2 p q)
      + broadcastTo S5000x64 (shapeCast S1x64 v20 shapeCasts_S1x64_S1x64 : FVec Ideal S1x64 .f32) broadcasts_S1x64_S5000x64 (ix2 p q) = _
  unfold MsgPass.updRow
  refine congrArg₂ (· + ·) ?_ ?_
  · refine (mm_apply _ rfl rfl rfl rfl rfl rfl _ _ p q).trans (Finset.sum_congr rfl fun k _ => congrArg₂ (· * ·) ?_ rfl)
    exact k1_hid_apply v0 v2 v5 v9 p k
  · exact (broadcastTo_1b_ab_apply _ _ p q).trans (congrFun (shapeCast_self v20 _) _)

end Cert.KernelIdeal.Pay

end
-- ==== Proof.Regions.lean ====
/-
  What each of the two pipelined regions leaves in its output array, as one function of the arrays it finds.

  Region 0 walks the 1,600,000 edges in 200 blocks of 8,000 rows; point `t` writes rows 8000 t … 8000 t + 7999 of the
  output, each the edge network of the same row of the three edge-indexed inputs, and the blocks tile the array.
  Region 1 does the same for the 100,000 nodes in 20 blocks of 5,000 rows with the update network.
-/
import proofs.«418739_j28887950033284_2_alg».proof.Proof.Gen.KernelIdeal.Frame
import proofs.«418739_j28887950033284_2_alg».proof.Proof.KPay
import proofs.«418739_j28887950033284_2_alg».proof.Proof.Spec
import Idealize.ShloMosaic.Lib.Pipeline.Value

noncomputable section

namespace Cert.KernelIdeal.Val

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## Region 0: the edge network, block by block -/

/-- What the body leaves in the output block, entry by entry: the edge network of row `p` of the three row blocks. -/
theorem out0_apply (x0 x1 : Vec Ideal S8000x64 .bf16) (x2 : Vec Ideal S8000x32 .f32) (x3 : Vec Ideal S160x64 .f32)
    (x4 : Vec Ideal S1x64 .f32) (x5 : Vec Ideal S64x64 .f32) (x6 : Vec Ideal S1x64 .f32) (p : Fin 8000) (q : Fin 64) :
    out0_7 (F := Ideal) x0 x1 x2 x3 x4 x5 x6 (ix2 p q)
      = MsgPass.edgeRow (fun a => x0 (ix2 p a)) (fun a => x1 (ix2 p a)) (fun a => x2 (ix2 p a)) (fun a k => x3 (ix2 a k))
          (fun k => x4 (ix2 (0 : Fin 1) k)) (fun k j => x5 (ix2 k j)) (fun j => x6 (ix2 (0 : Fin 1) j)) q := by
  unfold out0_7
  rw [View.canon_unit_zero hz]
  simp only [View.ld_unit_zero (S := S8000x64) hz, View.ld_unit_zero (S := S8000x32) hz, View.ld_unit_zero (S := S160x64) hz,
    View.ld_unit_zero (S := S1x64) hz, View.ld_unit_zero (S := S64x64) hz]
  exact Pay.k0_pay1_apply x0 x1 x2 x3 x4 x5 x6 p q

/-- The block indices over the grid: the three edge-indexed inputs and the output are at block `(t, 0)`, the weights
    and biases at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the block of source rows at point `t` is row `8000 t + p` of the array. -/
theorem iblk0_0_apply (c : Dev nD) (t : Fin cfg0.N) (p : Fin 8000) (a : Fin 64) (r : Fin 1600000)
    (hr : r.val = 8000 * t.val + p.val) : iblk0 V c 0 t (ix2 p a) = V c main_v5 (ix2 r a) := by
  obtain ⟨e0, e1, -⟩ := idx_facts0 t
  show V c main_v5 (((cfg0.win 0).blk t).view.emb (ix2 p a)) = _
  refine congrArg (V c main_v5) (funext fun d => Fin.ext ?_)
  match d with
  | ⟨0, _⟩ => show win0_0.index t (0 : Fin 2) * 8000 + 1 * p.val = r.val; omega
  | ⟨1, _⟩ => show win0_0.index t (1 : Fin 2) * 64 + 1 * a.val = a.val; omega

/-- Row `p` of the block of target rows at point `t` is row `8000 t + p` of the array. -/
theorem iblk0_1_apply (c : Dev nD) (t : Fin cfg0.N) (p : Fin 8000) (a : Fin 64) (r : Fin 1600000)
    (hr : r.val = 8000 * t.val + p.val) : iblk0 V c 1 t (ix2 p a) = V c main_v7 (ix2 r a) := by
  obtain ⟨-, -, e0, e1, -⟩ := idx_facts0 t
  show V c main_v7 (((cfg0.win 1).blk t).view.emb (ix2 p a)) = _
  refine congrArg (V c main_v7) (funext fun d => Fin.ext ?_)
  match d with
  | ⟨0, _⟩ => show win0_1.index t (0 : Fin 2) * 8000 + 1 * p.val = r.val; omega
  | ⟨1, _⟩ => show win0_1.index t (1 : Fin 2) * 64 + 1 * a.val = a.val; omega

/-- Row `p` of the block of edge features at point `t` is row `8000 t + p` of the array. -/
theorem iblk0_2_apply (c : Dev nD) (t : Fin cfg0.N) (p : Fin 8000) (a : Fin 32) (r : Fin 1600000)
    (hr : r.val = 8000 * t.val + p.val) : iblk0 V c 2 t (ix2 p a) = V c main_arg2 (ix2 r a) := by
  obtain ⟨-, -, -, -, e0, e1, -⟩ := idx_facts0 t
  show V c main_arg2 (((cfg0.win 2).blk t).view.emb (ix2 p a)) = _
  refine congrArg (V c main_arg2) (funext fun d => Fin.ext ?_)
  match d with
  | ⟨0, _⟩ => show win0_2.index t (0 : Fin 2) * 8000 + 1 * p.val = r.val; omega
  | ⟨1, _⟩ => show win0_2.index t (1 : Fin 2) * 32 + 1 * a.val = a.val; omega

/-- The first weight matrix's block is the matrix at every point. -/
theorem iblk0_3_apply (c : Dev nD) (t : Fin cfg0.N) (a : Fin 160) (k : Fin 64) :
    iblk0 V c 3 t (ix2 a k) = V c main_arg3 (ix2 a k) := by
  obtain ⟨-, -, -, -, -, -, e0, e1, -⟩ := idx_facts0 t
  show V c main_arg3 (((cfg0.win 3).blk t).view.emb (ix2 a k)) = _
  refine congrArg (V c main_arg3) (funext fun d => Fin.ext ?_)
  match d with
  | ⟨0, _⟩ => show win0_3.index t (0 : Fin 2) * 160 + 1 * a.val = a.val; omega
  | ⟨1, _⟩ => show win0_3.index t (1 : Fin 2) * 64 + 1 * k.val = k.val; omega

/-- The first bias's block is the bias row at every point. -/
theorem iblk0_4_apply (c : Dev nD) (t : Fin cfg0.N) (k : Fin 64) :
    iblk0 V c 4 t (ix2 (0 : Fin 1) k) = V c main_v8 (ix2 (0 : Fin 1) k) := by
  obtain ⟨-, -, -, -, -, -, -, -, e0, e1, -⟩ := idx_facts0 t
  show V c main_v8 (((cfg0.win 4).blk t).view.emb (ix2 (0 : Fin 1) k)) = _
  refine congrArg (V c main_v8) (funext fun d => Fin.ext ?_)
  match d with
  | ⟨0, _⟩ => show win0_4.index t (0 : Fin 2) * 1 + 1 * (0 : Fin 1).val = (0 : Fin 1).val; omega
  | ⟨1, _⟩ => show win0_4.index t (1 : Fin 2) * 64 + 1 * k.val = k.val; omega

/-- The second weight matrix's block is the matrix at every point. -/
theorem iblk0_5_apply (c : Dev nD) (t : Fin cfg0.N) (a : Fin 64) (k : Fin 64) :
    iblk0 V c 5 t (ix2 a k) = V c main_arg5 (ix2 a k) := by
  obtain ⟨-, -, -, -, -, -, -, -, -, -, e0, e1, -⟩ := idx_facts0 t
  show V c main_arg5 (((cfg0.win 5).blk t).view.emb (ix2 a k)) = _
  refine congrArg (V c main_arg5) (funext fun d => Fin.ext ?_)
  match d with
  | ⟨0, _⟩ => show win0_5.index t (0 : Fin 2) * 64 + 1 * a.val = a.val; omega
  | ⟨1, _⟩ => show win0_5.index t (1 : Fin 2) * 64 + 1 * k.val = k.val; omega

/-- The second bias's block is the bias row at every point. -/
theorem iblk0_6_apply (c : Dev nD) (t : Fin cfg0.N) (k : Fin 64) :
    iblk0 V c 6 t (ix2 (0 : Fin 1) k) = V c main_v9 (ix2 (0 : Fin 1) k) := by
  obtain ⟨-, -, -, -, -, -, -, -, -, -, -, -, e0, e1, -⟩ := idx_facts0 t
  show V c main_v9 (((cfg0.win 6).blk t).view.emb (ix2 (0 : Fin 1) k)) = _
  refine congrArg (V c main_v9) (funext fun d => Fin.ext ?_)
  match d with
  | ⟨0, _⟩ => show win0_6.index t (0 : Fin 2) * 1 + 1 * (0 : Fin 1).val = (0 : Fin 1).val; omega
  | ⟨1, _⟩ => show win0_6.index t (1 : Fin 2) * 64 + 1 * k.val = k.val; omega

/-- Every edge's message, of the arrays region 0 finds. -/
abbrev G0 (c : Dev nD) : (⟨2, ![1600000, 64]⟩ : Shape).Idx → EReal :=
  MsgPass.edgeArr (V c main_v5) (V c main_v7) (V c main_arg2) (V c main_arg3) (fun k => V c main_v8 (ix2 (0 : Fin 1) k))
    (V c main_arg5) (fun k => V c main_v9 (ix2 (0 : Fin 1) k))

/-- What point `t` writes back is block `t` of every edge's message. -/
theorem flushed0_eq (c : Dev nD) (t : Fin cfg0.N) :
    (dat0 (F := Ideal) V c).flushed 7 t = ((cfg0.win 7).blk t).view.read (Elt Ideal) (G0 V c) := by
  show (cfg0.win 7).cut (grid0.coords t) ((dat0 V c).after 7 t) = _
  rw [after0_7]
  funext j
  obtain ⟨p, q, rfl⟩ : ∃ (p : Fin 8000) (q : Fin 64), j = ix2 p q := ⟨j 0, j 1, eq_ix2 j⟩
  have ht : t.val < 200 := lt_of_lt_of_eq t.isLt N_0
  obtain ⟨-, -, -, -, -, -, -, -, -, -, -, -, -, -, e0, e1⟩ := idx_facts0 t
  have hemb : ((cfg0.win 7).blk t).view.emb (ix2 p q) = ix2 (⟨8000 * t.val + p.val, by omega⟩ : Fin 1600000) q := by
    funext d; apply Fin.ext
    match d with
    | ⟨0, _⟩ => show win0_7.index t (0 : Fin 2) * 8000 + 1 * p.val = 8000 * t.val + p.val; omega
    | ⟨1, _⟩ => show win0_7.index t (1 : Fin 2) * 64 + 1 * q.val = q.val; omega
  show out0_7 (iblk0 V c 0 t) (iblk0 V c 1 t) (iblk0 V c 2 t) (iblk0 V c 3 t) (iblk0 V c 4 t) (iblk0 V c 5 t) (iblk0 V c 6 t) (ix2 p q)
    = G0 V c (((cfg0.win 7).blk t).view.emb (ix2 p q))
  refine (out0_apply _ _ _ _ _ _ _ p q).trans ?_
  refine Eq.trans ?_ (congrArg (G0 V c) hemb).symm
  refine Eq.trans ?_ (MsgPass.edgeArr_ix2 _ _ _ _ _ _ _ _ q).symm
  have h0 := funext fun a => iblk0_0_apply V c t p a ⟨8000 * t.val + p.val, by omega⟩ rfl
  have h1 := funext fun a => iblk0_1_apply V c t p a ⟨8000 * t.val + p.val, by omega⟩ rfl
  have h2 := funext fun a => iblk0_2_apply V c t p a ⟨8000 * t.val + p.val, by omega⟩ rfl
  have h3 := funext fun a => funext fun k => iblk0_3_apply V c t a k
  have h4 := funext fun k => iblk0_4_apply V c t k
  have h5 := funext fun a => funext fun k => iblk0_5_apply V c t a k
  have h6 := funext fun k => iblk0_6_apply V c t k
  rw [h0, h1, h2, h3, h4, h5, h6]

/-- An index of the output array is in point `t`'s block iff each coordinate is in the block's range on its axis. -/
theorem mem_blk0 (t : Fin cfg0.N) (i : S1600000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v10).slice (win0_7.rect t)).set ↔ _
  rw [View.set_slice_whole, Rect.mem_set_unit]
  exact Iff.rfl

/-- The blocks tile the output array: row `r` is in the block of point `r / 8000`. -/
theorem cover0 (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  have hN : cfg0.N = 200 := N_0
  obtain ⟨t, ht⟩ : ∃ t : Fin cfg0.N, t.val = (i 0).val / 8000 := ⟨⟨(i 0).val / 8000, by rw [hN]; omega⟩, rfl⟩
  obtain ⟨-, -, -, -, -, -, -, -, -, -, -, -, -, -, e0, e1⟩ := idx_facts0 t
  refine ⟨t, flush0_7 t, ?_⟩
  rw [mem_blk0]
  intro a
  match a with
  | ⟨0, _⟩ =>
    show win0_7.index t (0 : Fin 2) * 8000 ≤ (i 0).val ∧ (i 0).val < win0_7.index t (0 : Fin 2) * 8000 + 8000
    omega
  | ⟨1, _⟩ =>
    show win0_7.index t (1 : Fin 2) * 64 ≤ (i 1).val ∧ (i 1).val < win0_7.index t (1 : Fin 2) * 64 + 64
    omega

/-- After region 0 its output array holds every edge's message, computed from the arrays the region found. -/
theorem final0 (c : Dev nD) :
    (dat0 (F := Ideal) V c).arrAt 7 cfg0.N
      = MsgPass.edgeArr (V c main_v5) (V c main_v7) (V c main_arg2) (V c main_arg3) (fun k => V c main_v8 (ix2 (0 : Fin 1) k))
          (V c main_arg5) (fun k => V c main_v9 (ix2 (0 : Fin 1) k)) :=
  (dat0 V c).arrAt_eq_of_cover 7 (G0 V c) (fun t _ => flushed0_eq V c t) cover0

/-! ## Region 1: the update network, block by block -/

/-- What the body leaves in the output block, entry by entry: the update network of row `p` of the two row blocks. -/
theorem out1_apply (x0 x1 : Vec Ideal S5000x64 .f32) (x2 : Vec Ideal S128x64 .f32) (x3 : Vec Ideal S1x64 .f32)
    (x4 : Vec Ideal S64x64 .f32) (x5 : Vec Ideal S1x64 .f32) (p : Fin 5000) (q : Fin 64) :
    out1_6 (F := Ideal) x0 x1 x2 x3 x4 x5 (ix2 p q)
      = MsgPass.updRow (fun a => x0 (ix2 p a)) (fun a => x1 (ix2 p a)) (fun a k => x2 (ix2 a k))
          (fun k => x3 (ix2 (0 : Fin 1) k)) (fun k j => x4 (ix2 k j)) (fun j => x5 (ix2 (0 : Fin 1) j)) q := by
  unfold out1_6
  rw [View.canon_unit_zero hz]
  simp only [View.ld_unit_zero (S := S5000x64) hz, View.ld_unit_zero (S := S128x64) hz,
    View.ld_unit_zero (S := S1x64) hz, View.ld_unit_zero (S := S64x64) hz]
  exact Pay.k1_pay1_apply x0 x1 x2 x3 x4 x5 p q

/-- The block indices over the grid: the two node-indexed inputs and the output are at block `(t, 0)`, the weights
    and biases at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the block of node rows at point `t` is row `5000 t + p` of the array. -/
theorem iblk1_0_apply (c : Dev nD) (t : Fin cfg1.N) (p : Fin 5000) (a : Fin 64) (r : Fin 100000)
    (hr : r.val = 5000 * t.val + p.val) : iblk1 V c 0 t (ix2 p a) = V c main_arg0 (ix2 r a) := by
  obtain ⟨e0, e1, -⟩ := idx_facts1 t
  show V c main_arg0 (((cfg1.win 0).blk t).view.emb (ix2 p a)) = _
  refine congrArg (V c main_arg0) (funext fun d => Fin.ext ?_)
  match d with
  | ⟨0, _⟩ => show win1_0.index t (0 : Fin 2) * 5000 + 1 * p.val = r.val; omega
  | ⟨1, _⟩ => show win1_0.index t (1 : Fin 2) * 64 + 1 * a.val = a.val; omega

/-- Row `p` of the block of aggregated messages at point `t` is row `5000 t + p` of the array. -/
theorem iblk1_1_apply (c : Dev nD) (t : Fin cfg1.N) (p : Fin 5000) (a : Fin 64) (r : Fin 100000)
    (hr : r.val = 5000 * t.val + p.val) : iblk1 V c 1 t (ix2 p a) = V c main_v14 (ix2 r a) := by
  obtain ⟨-, -, e0, e1, -⟩ := idx_facts1 t
  show V c main_v14 (((cfg1.win 1).blk t).view.emb (ix2 p a)) = _
  refine congrArg (V c main_v14) (funext fun d => Fin.ext ?_)
  match d with
  | ⟨0, _⟩ => show win1_1.index t (0 : Fin 2) * 5000 + 1 * p.val = r.val; omega
  | ⟨1, _⟩ => show win1_1.index t (1 : Fin 2) * 64 + 1 * a.val = a.val; omega

/-- The first weight matrix's block is the matrix at every point. -/
theorem iblk1_2_apply (c : Dev nD) (t : Fin cfg1.N) (a : Fin 128) (k : Fin 64) :
    iblk1 V c 2 t (ix2 a k) = V c main_arg7 (ix2 a k) := by
  obtain ⟨-, -, -, -, e0, e1, -⟩ := idx_facts1 t
  show V c main_arg7 (((cfg1.win 2).blk t).view.emb (ix2 a k)) = _
  refine congrArg (V c main_arg7) (funext fun d => Fin.ext ?_)
  match d with
  | ⟨0, _⟩ => show win1_2.index t (0 : Fin 2) * 128 + 1 * a.val = a.val; omega
  | ⟨1, _⟩ => show win1_2.index t (1 : Fin 2) * 64 + 1 * k.val = k.val; omega

/-- The first bias's block is the bias row at every point. -/
theorem iblk1_3_apply (c : Dev nD) (t : Fin cfg1.N) (k : Fin 64) :
    iblk1 V c 3 t (ix2 (0 : Fin 1) k) = V c main_v15 (ix2 (0 : Fin 1) k) := by
  obtain ⟨-, -, -, -, -, -, e0, e1, -⟩ := idx_facts1 t
  show V c main_v15 (((cfg1.win 3).blk t).view.emb (ix2 (0 : Fin 1) k)) = _
  refine congrArg (V c main_v15) (funext fun d => Fin.ext ?_)
  match d with
  | ⟨0, _⟩ => show win1_3.index t (0 : Fin 2) * 1 + 1 * (0 : Fin 1).val = (0 : Fin 1).val; omega
  | ⟨1, _⟩ => show win1_3.index t (1 : Fin 2) * 64 + 1 * k.val = k.val; omega

/-- The second weight matrix's block is the matrix at every point. -/
theorem iblk1_4_apply (c : Dev nD) (t : Fin cfg1.N) (a : Fin 64) (k : Fin 64) :
    iblk1 V c 4 t (ix2 a k) = V c main_arg9 (ix2 a k) := by
  obtain ⟨-, -, -, -, -, -, -, -, e0, e1, -⟩ := idx_facts1 t
  show V c main_arg9 (((cfg1.win 4).blk t).view.emb (ix2 a k)) = _
  refine congrArg (V c main_arg9) (funext fun d => Fin.ext ?_)
  match d with
  | ⟨0, _⟩ => show win1_4.index t (0 : Fin 2) * 64 + 1 * a.val = a.val; omega
  | ⟨1, _⟩ => show win1_4.index t (1 : Fin 2) * 64 + 1 * k.val = k.val; omega

/-- The second bias's block is the bias row at every point. -/
theorem iblk1_5_apply (c : Dev nD) (t : Fin cfg1.N) (k : Fin 64) :
    iblk1 V c 5 t (ix2 (0 : Fin 1) k) = V c main_v16 (ix2 (0 : Fin 1) k) := by
  obtain ⟨-, -, -, -, -, -, -, -, -, -, e0, e1, -⟩ := idx_facts1 t
  show V c main_v16 (((cfg1.win 5).blk t).view.emb (ix2 (0 : Fin 1) k)) = _
  refine congrArg (V c main_v16) (funext fun d => Fin.ext ?_)
  match d with
  | ⟨0, _⟩ => show win1_5.index t (0 : Fin 2) * 1 + 1 * (0 : Fin 1).val = (0 : Fin 1).val; omega
  | ⟨1, _⟩ => show win1_5.index t (1 : Fin 2) * 64 + 1 * k.val = k.val; omega

/-- Every node's update, of the arrays region 1 finds. -/
abbrev G1 (c : Dev nD) : (⟨2, ![100000, 64]⟩ : Shape).Idx → EReal :=
  MsgPass.updArr (V c main_arg0) (V c main_v14) (V c main_arg7) (fun k => V c main_v15 (ix2 (0 : Fin 1) k))
    (V c main_arg9) (fun k => V c main_v16 (ix2 (0 : Fin 1) k))

/-- What point `t` writes back is block `t` of every node's update. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  funext j
  obtain ⟨p, q, rfl⟩ : ∃ (p : Fin 5000) (q : Fin 64), j = ix2 p q := ⟨j 0, j 1, eq_ix2 j⟩
  have ht : t.val < 20 := lt_of_lt_of_eq t.isLt N_1
  obtain ⟨-, -, -, -, -, -, -, -, -, -, -, -, e0, e1⟩ := idx_facts1 t
  have hemb : ((cfg1.win 6).blk t).view.emb (ix2 p q) = ix2 (⟨5000 * t.val + p.val, by omega⟩ : Fin 100000) q := by
    funext d; apply Fin.ext
    match d with
    | ⟨0, _⟩ => show win1_6.index t (0 : Fin 2) * 5000 + 1 * p.val = 5000 * t.val + p.val; omega
    | ⟨1, _⟩ => show win1_6.index t (1 : Fin 2) * 64 + 1 * q.val = q.val; omega
  show out1_6 (iblk1 V c 0 t) (iblk1 V c 1 t) (iblk1 V c 2 t) (iblk1 V c 3 t) (iblk1 V c 4 t) (iblk1 V c 5 t) (ix2 p q)
    = G1 V c (((cfg1.win 6).blk t).view.emb (ix2 p q))
  refine (out1_apply _ _ _ _ _ _ p q).trans ?_
  refine Eq.trans ?_ (congrArg (G1 V c) hemb).symm
  refine Eq.trans ?_ (MsgPass.updArr_ix2 _ _ _ _ _ _ _ q).symm
  have h0 := funext fun a => iblk1_0_apply V c t p a ⟨5000 * t.val + p.val, by omega⟩ rfl
  have h1 := funext fun a => iblk1_1_apply V c t p a ⟨5000 * t.val + p.val, by omega⟩ rfl
  have h2 := funext fun a => funext fun k => iblk1_2_apply V c t a k
  have h3 := funext fun k => iblk1_3_apply V c t k
  have h4 := funext fun a => funext fun k => iblk1_4_apply V c t a k
  have h5 := funext fun k => iblk1_5_apply V c t k
  rw [h0, h1, h2, h3, h4, h5]

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v17).slice (win1_6.rect t)).set ↔ _
  rw [View.set_slice_whole, Rect.mem_set_unit]
  exact Iff.rfl

/-- The blocks tile the output array: row `r` is in the block of point `r / 5000`. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- After region 1 its output array holds every node's update, computed from the arrays the region found. -/
theorem final1 (c : Dev nD) :
    (dat1 (F := Ideal) V c).arrAt 6 cfg1.N
      = MsgPass.updArr (V c main_arg0) (V c main_v14) (V c main_arg7) (fun k => V c main_v15 (ix2 (0 : Fin 1) k))
          (V c main_arg9) (fun k => V c main_v16 (ix2 (0 : Fin 1) k)) :=
  (dat1 V c).arrAt_eq_of_cover 6 (G1 V c) (fun t _ => flushed1_eq V c t) cover1

end Cert.KernelIdeal.Val

end
-- ==== Proof.KDefs.lean ====
/-
  Names for the host-side pieces of the kernel's program.

  The program takes the two rows of the edge list (`srcRow`, `tgtRow`), and gathers node rows with a guarded take:
  an index below zero is first wrapped by adding the node count (`wrapCol`), the rows are gathered at the wrapped
  indices, and a row whose wrapped index lies outside 0 … 99999 (`takeMask`) is replaced by a filler word.
-/
import proofs.«418739_j28887950033284_2_alg».proof.KernelIdeal

noncomputable section

namespace Cert.KernelIdeal.Val

open Cert.KernelIdeal Cert.KernelIdeal.Facts₀ Idealize.ShloMosaic

variable [Cert.KernelIdeal.Facts]
variable {F : FTy → Type} [FloatOps F]

/-- Row 0 of the edge list: the source node of every edge. -/
def srcRow (x1 : IVec S2x1600000 32) : IVec S1600000 32 :=
  shapeCast _ (extractStridedSlice S1x1600000 ![0, 0] x1 slices_S2x1600000_S1x1600000_0_0) shapeCasts_S1x1600000_S1600000

/-- Row 1 of the edge list: the target node of every edge. -/
def tgtRow (x1 : IVec S2x1600000 32) : IVec S1600000 32 :=
  shapeCast _ (extractStridedSlice S1x1600000 ![1, 0] x1 slices_S2x1600000_S1x1600000_1_0) shapeCasts_S1x1600000_S1600000

/-- The indices a gather uses, as a column: an index below zero has the node count added. -/
def wrapCol (row : IVec S1600000 32) : IVec S1600000x1 32 :=
  broadcastInDim S1600000x1 ![0] bcast_S1600000_S1600000x1_0
    (select (cmpi .slt row (broadcastInDim S1600000 ![] bcast_S_S1600000 (constantI S_ 32 0#32)))
      (addi row (broadcastInDim S1600000 ![] bcast_S_S1600000 (constantI S_ 32 100000#32))) row)

/-- One bit per entry of the gathered rows: is the row's wrapped index within 0 … 99999? -/
def takeMask (col : IVec S1600000x1 32) : IVec S1600000x64 1 :=
  broadcastInDim S1600000x64 ![0] bcast_S1600000_S1600000x64_0
    (Host.reduce IntOp.andi
      (andi (cmpi .sge col (broadcastInDim S1600000x1 ![] bcast_S_S1600000x1 (constantI S_ 32 0#32)))
        (cmpi .sle col (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The guarded take: node rows gathered at the wrapped indices, a row out of range replaced by the filler. -/
def takeRows (x : FVec F S100000x64 .f32) (row : IVec S1600000 32) : FVec F S1600000x64 .f32 :=
  select (takeMask (wrapCol row))
    (Host.gather gather_S100000x64_S1600000x1_S1600000x64_1_0_n_n_0_1_164 x (wrapCol row))
    (broadcastInDim S1600000x64 ![] bcast_S_S1600000x64 (constant S_ .f32 0x7FC00000#32))

/-- The aggregation: every edge's message added into its target node's row, from zero. -/
def aggregate (x1 : IVec S2x1600000 32) (msg : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (tgtRow x1)) msg

end Cert.KernelIdeal.Val

end
-- ==== Proof.LibNary3.lean ====
import Idealize.ShloMosaic.Lib.StableHlo.Run

/-!
# An operation over a literal family of three references

`StableHlo.nary` over a literal family `![x, a, b]` — a concatenate of three operands — leaves in its result buffer its
function applied to the three operands' contents, each read at its own reference: the family of contents is
`Fin.cons (F ↑x) (Fin.cons (F ↑a) (Fin.cons (F ↑b) _))`, which is `fun k => F ↑(![x, a, b] k)` entry by entry. The library
states this for four references (`StableHlo.nary4_result`); this is the same statement for three.
-/

noncomputable section

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same equation, its left side not keyed on the result reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibReadBack.lean ====
import proofs.«418739_j28887950033284_2_alg».proof.Proof.LibNary3
import Idealize.ShloMosaic.Lib.StableHlo.Run
import Idealize.ShloMosaic.PureOps
import Mathlib.Data.Fin.Tuple.Basic

/-!
# Reading a buffer back through a long line of host operations

`StableHlo.after ops V b` — buffer `b` after the operations `ops`, in order, from contents `V` — is a fold; for a literal list of
the builders' operations over literal references it is the composed term of the operations that feed `b`, over `V` at the
buffers none of them writes. `read_back` computes that term in one simplification pass, as the library's
`after_results_simp` does, with the result lemma for an operation over three literal references (a three-piece concatenate)
in the place of the library's for any family: its operands' contents then stand as the entries of a `Fin.cons` tuple, each at
a literal reference, and the tuple's entries at the literal positions 0, 1, 2 are read off (`Fin.cons_zero`, `Fin.cons_one`,
`cons3_two`), so that the pass goes on into them. The typed references of an inlined callee's operations cast contents along
equations between a buffer's type and itself: the casts are removed last.
-/

namespace Idealize.ShloMosaic.StableHlo

/-- The entry of a three-entry dependent tuple at position 2. -/
theorem cons3_two {α : Fin 3 → Sort _} (x : α 0) (p : (i : Fin 2) → α i.succ) :
    (Fin.cons x p : (i : Fin 3) → α i) 2 = p 1 := rfl

/-- A concatenate is rewritten in its list of pieces, its evidence — which speaks of the pieces' shapes only — carried along: so that
    a simplification pass goes into the pieces (the evidence's type mentions the list, which by itself keeps the pass out). -/
@[congr] theorem concatenate_congr {α : Type} (t : Shape) (a : Fin t.rank) {xs xs' : List ((s : Shape) × (s.Idx → α))}
    (e : xs = xs') (h : Shape.Concatenates (xs.map (·.1)) t a) :
    concatenate t a xs h = concatenate t a xs' (e ▸ h) := by
  subst e; rfl

/-- Reads a buffer back through a literal line of host operations (see the module's header). -/
macro "read_back" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, Fin.cons_one, cons3_two]
             try simp only [TRef.ofBuf, TRef.toBuf, cast_eq]))

end Idealize.ShloMosaic.StableHlo
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.LibReadBack2.lean ====
import proofs.«418739_j28887950033284_2_alg».proof.Proof.LibReadBack
import proofs.«418739_j28887950033284_2_alg».proof.Proof.LibTypedRef

/-!
# Reading a buffer back, with the typed references' casts cancelled in pairs first

An inlined callee's operations write their results through typed references and read their operands back through them: the
composed term is full of `x.ofBuf (x.toBuf v)`, which is `v` (`TRef.ofBuf_toBuf`). `read_back2` is `read_back`'s pass with
those pairs cancelled before the remaining casts — the few at the stretch's own operands and at its result — are opened and
removed; removing a cast over a large operand by unification is what that avoids. `concat3_evid`: a three-piece concatenate under
any evidence is the same under any other (the evidence is a proof), used to put a concatenate's evidence back in the form it is
printed with after a simplification pass has rewritten its pieces. `concat3`: a three-piece concatenate as a function of its
pieces (`concatenate_three`): the pass then rewrites the pieces as ordinary arguments and the evidence stays the printed one.
-/

namespace Idealize.ShloMosaic.StableHlo

/-- A three-piece concatenate does not depend on which evidence it is given. -/
theorem concat3_evid {α : Type} (t : Shape) (a : Fin t.rank) (S₁ S₂ S₃ : Shape) (x : S₁.Idx → α) (y : S₂.Idx → α) (z : S₃.Idx → α)
    (h : Shape.Concatenates (([⟨S₁, x⟩, ⟨S₂, y⟩, ⟨S₃, z⟩] : List ((s : Shape) × (s.Idx → α))).map (·.1)) t a)
    (h' : Shape.Concatenates [S₁, S₂, S₃] t a) :
    concatenate t a [⟨S₁, x⟩, ⟨S₂, y⟩, ⟨S₃, z⟩] h = concatenate t a [⟨S₁, x⟩, ⟨S₂, y⟩, ⟨S₃, z⟩] h' := rfl

/-- A three-piece concatenate as a function of its three pieces, its evidence stated of the pieces' shapes alone. -/
def concat3 {α : Type} (t : Shape) (a : Fin t.rank) (S₁ S₂ S₃ : Shape) (h : Shape.Concatenates [S₁, S₂, S₃] t a)
    (x : S₁.Idx → α) (y : S₂.Idx → α) (z : S₃.Idx → α) : t.Idx → α :=
  concatenate t a [⟨S₁, x⟩, ⟨S₂, y⟩, ⟨S₃, z⟩] h

/-- The printed form of a three-piece concatenate is that function of its pieces: in this form a simplification pass rewrites
    the pieces as ordinary arguments, and the evidence is the printed one, unchanged. -/
theorem concatenate_three {α : Type} (t : Shape) (a : Fin t.rank) (S₁ S₂ S₃ : Shape) (x : S₁.Idx → α) (y : S₂.Idx → α) (z : S₃.Idx → α)
    (h : Shape.Concatenates (([⟨S₁, x⟩, ⟨S₂, y⟩, ⟨S₃, z⟩] : List ((s : Shape) × (s.Idx → α))).map (·.1)) t a) :
    concatenate t a [⟨S₁, x⟩, ⟨S₂, y⟩, ⟨S₃, z⟩] h = concat3 t a S₁ S₂ S₃ (by simpa using h) x y z := rfl

/-- `read_back` with the typed references' casts cancelled in pairs first (see the module's header). -/
macro "read_back2" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, Fin.cons_one, cons3_two, ↓concatenate_three]
             try simp only [TRef.ofBuf_toBuf]
             try simp only [TRef.ofBuf, TRef.toBuf, cast_eq]))

end Idealize.ShloMosaic.StableHlo
-- ==== Proof.HostK.lean ====
/-
  What the host lines of the kernel's program leave in the buffers the two regions read.

  Before region 0: the two rows of the edge list are cut out and flattened; each guarded take gathers node rows at
  one row's indices; the gathered rows are narrowed to the region's input format.  Between the regions: region 0's
  output is widened back and added by target node into an array of zeros.  Each value is read in the stretch of
  operations that computes it, and carried unchanged through the stretches that do not write it.
-/
import proofs.«418739_j28887950033284_2_alg».proof.Proof.Gen.KernelIdeal.Frame
import proofs.«418739_j28887950033284_2_alg».proof.Proof.KDefs
import proofs.«418739_j28887950033284_2_alg».proof.Proof.LibReadBack2
import Idealize.ShloMosaic.Lib.StableHlo.Run
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.StableHlo

variable {F : FTy → Type} [FloatOps F]

/-! ## Each stretch, from any contents -/

/-- The first stretch leaves the source row of the edge list … -/
theorem after_v1 (X : Valuation τ sig (Elt F)) :
    StableHlo.after hostOps0 X (Proc.devRef .tc main_v1) = srcRow (X (Proc.devRef .tc main_arg1)) := by
  unfold srcRow
  read_back2
  rfl

/-- … and its target row. -/
theorem after_v3 (X : Valuation τ sig (Elt F)) :
    StableHlo.after hostOps0 X (Proc.devRef .tc main_v3) = tgtRow (X (Proc.devRef .tc main_arg1)) := by
  unfold tgtRow
  read_back2
  rfl

/-- The first guarded take: node rows at the source row's indices. -/
theorem after_v4 (X : Valuation τ sig (Elt F)) :
    StableHlo.after hostOps0_1 X (Proc.devRef .tc main_v4)
      = takeRows (X (Proc.devRef .tc main_arg0)) (X (Proc.devRef .tc main_v1)) := by
  unfold takeRows takeMask wrapCol
  read_back2

/-- Its rows narrowed. -/
theorem after_v5 (X : Valuation τ sig (Elt F)) :
    StableHlo.after hostOps0_2 X (Proc.devRef .tc main_v5) = truncf .bf16 (X (Proc.devRef .tc main_v4)) bitsLt_bf16_f32 := by
  read_back2

/-- The second guarded take: node rows at the target row's indices. -/
theorem after_v6 (X : Valuation τ sig (Elt F)) :
    StableHlo.after hostOps0_3 X (Proc.devRef .tc main_v6)
      = takeRows (X (Proc.devRef .tc main_arg0)) (X (Proc.devRef .tc main_v3)) := by
  unfold takeRows takeMask wrapCol
  read_back2

/-- Its rows narrowed. -/
theorem after_v7 (X : Valuation τ sig (Elt F)) :
    StableHlo.after hostOps0_4 X (Proc.devRef .tc main_v7) = truncf .bf16 (X (Proc.devRef .tc main_v6)) bitsLt_bf16_f32 := by
  read_back2

/-- Between the regions: the widened messages added by target node from zero. -/
theorem after_v14 (X : Valuation τ sig (Elt F)) :
    StableHlo.after hostOps1 X (Proc.devRef .tc main_v14)
      = Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 (X (Proc.devRef .tc main_v3)))
          (extf .f32 (X (Proc.devRef .tc main_v10)) bitsLt_bf16_f32) := by
  read_back2

variable (m : (ℓ : Loc nD τ sig) → Buf (Elt F) ℓ) (ρ : Dev nD → PrngReg)

/-- A buffer that none of a stretch's operations writes holds after the stretch what it held before. -/
local macro "unwritten" : tactic => `(tactic|
  (refine StableHlo.after_of_forall_not_mem _ _ (List.forall_iff_forall_mem.mp ?_)
   simp only [hostOps0, hostOps0_1, hostOps0_2, hostOps0_3, hostOps0_4, hostOps1, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The two rows of the edge list, wherever they are read -/

theorem W1_v1 (c : Dev nD) : W1 m ρ c (Proc.devRef .tc main_v1) = srcRow (m ((c : Thread nD τ).loc main_arg1)) :=
  after_v1 (W0 m ρ c)

theorem W1_v3 (c : Dev nD) : W1 m ρ c (Proc.devRef .tc main_v3) = tgtRow (m ((c : Thread nD τ).loc main_arg1)) :=
  after_v3 (W0 m ρ c)

theorem W3_v3 (c : Dev nD) : W3 m ρ c (Proc.devRef .tc main_v3) = tgtRow (m ((c : Thread nD τ).loc main_arg1)) :=
  calc W3 m ρ c (Proc.devRef .tc main_v3)
    _ = W2 m ρ c (Proc.devRef .tc main_v3) := by unwritten
    _ = W1 m ρ c (Proc.devRef .tc main_v3) := by unwritten
    _ = tgtRow (m ((c : Thread nD τ).loc main_arg1)) := W1_v3 m ρ c

theorem W6_v3 (c : Dev nD) : W6 m ρ c (Proc.devRef .tc main_v3) = tgtRow (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by unwritten
    _ = W3 m ρ c (Proc.devRef .tc main_v3) := by unwritten
    _ = tgtRow (m ((c : Thread nD τ).loc main_arg1)) := W3_v3 m ρ c

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by unwritten
    _ = m ((c : Thread nD τ).loc main_arg0) := rfl

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten
    _ = W1 m ρ c (Proc.devRef .tc main_arg0) := by unwritten
    _ = m ((c : Thread nD τ).loc main_arg0) := W1_arg0 m ρ c

/-! ## At region 0's entry -/

/-- The gathered source rows, narrowed. -/
theorem V5_v5 (c : Dev nD) :
    V5 m ρ c main_v5 = truncf .bf16 (takeRows (m ((c : Thread nD τ).loc main_arg0)) (srcRow (m ((c : Thread nD τ).loc main_arg1)))) bitsLt_bf16_f32 :=
  calc W5 m ρ c (Proc.devRef .tc main_v5)
    _ = W4 m ρ c (Proc.devRef .tc main_v5) := by unwritten
    _ = W3 m ρ c (Proc.devRef .tc main_v5) := by unwritten
    _ = truncf .bf16 (W2 m ρ c (Proc.devRef .tc main_v4)) bitsLt_bf16_f32 := after_v5 (W2 m ρ c)
    _ = truncf .bf16 (takeRows (W1 m ρ c (Proc.devRef .tc main_arg0)) (W1 m ρ c (Proc.devRef .tc main_v1))) bitsLt_bf16_f32 :=
      congrArg (fun z => truncf .bf16 z bitsLt_bf16_f32) (after_v4 (W1 m ρ c))
    _ = _ := by rw [W1_arg0, W1_v1]

/-- The gathered target rows, narrowed. -/
theorem V5_v7 (c : Dev nD) :
    V5 m ρ c main_v7 = truncf .bf16 (takeRows (m ((c : Thread nD τ).loc main_arg0)) (tgtRow (m ((c : Thread nD τ).loc main_arg1)))) bitsLt_bf16_f32 :=
  calc W5 m ρ c (Proc.devRef .tc main_v7)
    _ = truncf .bf16 (W4 m ρ c (Proc.devRef .tc main_v6)) bitsLt_bf16_f32 := after_v7 (W4 m ρ c)
    _ = truncf .bf16 (takeRows (W3 m ρ c (Proc.devRef .tc main_arg0)) (W3 m ρ c (Proc.devRef .tc main_v3))) bitsLt_bf16_f32 :=
      congrArg (fun z => truncf .bf16 z bitsLt_bf16_f32) (after_v6 (W3 m ρ c))
    _ = _ := by rw [W3_arg0, W3_v3]

/-! ## At region 1's entry -/

/-- The aggregated messages: region 0's output array, widened, added by target node from zero. -/
theorem V7_v14 (c : Dev nD) :
    V7 m ρ c main_v14
      = aggregate (m ((c : Thread nD τ).loc main_arg1)) (extf .f32 (V6 m ρ c main_v10) bitsLt_bf16_f32) := by
  refine (after_v14 (W6 m ρ c)).trans ?_
  unfold aggregate
  rw [W6_v3]

end Cert.KernelIdeal.Val

end
-- ==== Proof.HostArgs.lean ====
/-
  The program's arguments and its four bias rows, as the two regions find them.

  No host operation and no region writes an argument, so at every boundary an argument's buffer holds what it held
  at launch.  Each bias, a vector of 64 entries, is reshaped to one row of 64: entry `(0, k)` of the row is entry `k`
  of the vector.
-/
import proofs.«418739_j28887950033284_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Val

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- A buffer that none of a stretch's operations writes holds after the stretch what it held before. -/
local macro "unwritten" : tactic => `(tactic|
  (refine StableHlo.after_of_forall_not_mem _ _ (List.forall_iff_forall_mem.mp ?_)
   simp only [hostOps0, hostOps0_1, hostOps0_2, hostOps0_3, hostOps0_4, hostOps1, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The arguments at region 0's entry -/

theorem V5_arg0 (c : Dev nD) : V5 m ρ c main_arg0 = m ((c : Thread nD τ).loc main_arg0) :=
  calc W5 m ρ c (Proc.devRef .tc main_arg0)
    _ = W4 m ρ c (Proc.devRef .tc main_arg0) := by unwritten
    _ = W3 m ρ c (Proc.devRef .tc main_arg0) := by unwritten
    _ = W2 m ρ c (Proc.devRef .tc main_arg0) := by unwritten
    _ = W1 m ρ c (Proc.devRef .tc main_arg0) := by unwritten
    _ = W0 m ρ c (Proc.devRef .tc main_arg0) := by unwritten
    _ = m ((c : Thread nD τ).loc main_arg0) := rfl

theorem V5_arg1 (c : Dev nD) : V5 m ρ c main_arg1 = m ((c : Thread nD τ).loc main_arg1) :=
  calc W5 m ρ c (Proc.devRef .tc main_arg1)
    _ = W4 m ρ c (Proc.devRef .tc main_arg1) := by unwritten
    _ = W3 m ρ c (Proc.devRef .tc main_arg1) := by unwritten
    _ = W2 m ρ c (Proc.devRef .tc main_arg1) := by unwritten
    _ = W1 m ρ c (Proc.devRef .tc main_arg1) := by unwritten
    _ = W0 m ρ c (Proc.devRef .tc main_arg1) := by unwritten
    _ = m ((c : Thread nD τ).loc main_arg1) := rfl

theorem V5_arg2 (c : Dev nD) : V5 m ρ c main_arg2 = m ((c : Thread nD τ).loc main_arg2) :=
  calc W5 m ρ c (Proc.devRef .tc main_arg2)
    _ = W4 m ρ c (Proc.devRef .tc main_arg2) := by unwritten
    _ = W3 m ρ c (Proc.devRef .tc main_arg2) := by unwritten
    _ = W2 m ρ c (Proc.devRef .tc main_arg2) := by unwritten
    _ = W1 m ρ c (Proc.devRef .tc main_arg2) := by unwritten
    _ = W0 m ρ c (Proc.devRef .tc main_arg2) := by unwritten
    _ = m ((c : Thread nD τ).loc main_arg2) := rfl

theorem V5_arg3 (c : Dev nD) : V5 m ρ c main_arg3 = m ((c : Thread nD τ).loc main_arg3) :=
  calc W5 m ρ c (Proc.devRef .tc main_arg3)
    _ = W4 m ρ c (Proc.devRef .tc main_arg3) := by unwritten
    _ = W3 m ρ c (Proc.devRef .tc main_arg3) := by unwritten
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl

theorem V5_arg5 (c : Dev nD) : V5 m ρ c main_arg5 = m ((c : Thread nD τ).loc main_arg5) :=
  calc W5 m ρ c (Proc.devRef .tc main_arg5)
    _ = W4 m ρ c (Proc.devRef .tc main_arg5) := by unwritten
    _ = W3 m ρ c (Proc.devRef .tc main_arg5) := by unwritten
    _ = W2 m ρ c (Proc.devRef .tc main_arg5) := by unwritten
    _ = W1 m ρ c (Proc.devRef .tc main_arg5) := by unwritten
    _ = W0 m ρ c (Proc.devRef .tc main_arg5) := by unwritten
    _ = m ((c : Thread nD τ).loc main_arg5) := rfl

/-! ## The edge network's biases as rows -/

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by unwritten
    _ = W2 m ρ c (Proc.devRef .tc main_arg4) := by unwritten
    _ = W1 m ρ c (Proc.devRef .tc main_arg4) := by unwritten
    _ = W0 m ρ c (Proc.devRef .tc main_arg4) := by unwritten
    _ = m ((c : Thread nD τ).loc main_arg4) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by unwritten
    _ = W2 m ρ c (Proc.devRef .tc main_arg6) := by unwritten
    _ = W1 m ρ c (Proc.devRef .tc main_arg6) := by unwritten
    _ = W0 m ρ c (Proc.devRef .tc main_arg6) := by unwritten
    _ = m ((c : Thread nD τ).loc main_arg6) := rfl

theorem after_v8 (X : Valuation τ sig (Elt F)) :
    StableHlo.after hostOps0_4 X (Proc.devRef .tc main_v8)
      = shapeCast S1x64 (X (Proc.devRef .tc main_arg4)) shapeCasts_S64_S1x64 := by
  after_results
  rfl

theorem after_v9 (X : Valuation τ sig (Elt F)) :
    StableHlo.after hostOps0_4 X (Proc.devRef .tc main_v9)
      = shapeCast S1x64 (X (Proc.devRef .tc main_arg6)) shapeCasts_S64_S1x64 := by
  after_results
  rfl

theorem V5_v8_apply (c : Dev nD) (k : Fin 64) :
    V5 m ρ c main_v8 (ix2 (0 : Fin 1) k) = m ((c : Thread nD τ).loc main_arg4) (ix1 k) := by
  refine (congrFun (after_v8 (W4 m ρ c)) (ix2 (0 : Fin 1) k)).trans ?_
  refine (shapeCast_apply (s := S64) (t := S1x64) _ shapeCasts_S64_S1x64 (ix2 (0 : Fin 1) k) (ix1 k) ?_).trans ?_
  · rw [Shape.rowMajor_val_two, Shape.rowMajor_val_one]
    show k.val = 0 * 64 + k.val
    omega
  · exact congrFun (W4_arg4 m ρ c) (ix1 k)

theorem V5_v9_apply (c : Dev nD) (k : Fin 64) :
    V5 m ρ c main_v9 (ix2 (0 : Fin 1) k) = m ((c : Thread nD τ).loc main_arg6) (ix1 k) := by
  refine (congrFun (after_v9 (W4 m ρ c)) (ix2 (0 : Fin 1) k)).trans ?_
  refine (shapeCast_apply (s := S64) (t := S1x64) _ shapeCasts_S64_S1x64 (ix2 (0 : Fin 1) k) (ix1 k) ?_).trans ?_
  · rw [Shape.rowMajor_val_two, Shape.rowMajor_val_one]
    show k.val = 0 * 64 + k.val
    omega
  · exact congrFun (W4_arg6 m ρ c) (ix1 k)

/-! ## The arguments at region 1's entry -/

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := by unwritten
    _ = W3 m ρ c (Proc.devRef .tc main_arg0) := by unwritten
    _ = W2 m ρ c (Proc.devRef .tc main_arg0) := by unwritten
    _ = W1 m ρ c (Proc.devRef .tc main_arg0) := by unwritten
    _ = W0 m ρ c (Proc.devRef .tc main_arg0) := by unwritten
    _ = m ((c : Thread nD τ).loc main_arg0) := rfl

theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by unwritten
    _ = W3 m ρ c (Proc.devRef .tc main_arg7) := by unwritten
    _ = W2 m ρ c (Proc.devRef .tc main_arg7) := by unwritten
    _ = W1 m ρ c (Proc.devRef .tc main_arg7) := by unwritten
    _ = W0 m ρ c (Proc.devRef .tc main_arg7) := by unwritten
    _ = m ((c : Thread nD τ).loc main_arg7) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by unwritten
    _ = W3 m ρ c (Proc.devRef .tc main_arg9) := by unwritten
    _ = W2 m ρ c (Proc.devRef .tc main_arg9) := by unwritten
    _ = W1 m ρ c (Proc.devRef .tc main_arg9) := by unwritten
    _ = W0 m ρ c (Proc.devRef .tc main_arg9) := by unwritten
    _ = m ((c : Thread nD τ).loc main_arg9) := rfl

theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by unwritten
    _ = W3 m ρ c (Proc.devRef .tc main_arg8) := by unwritten
    _ = W2 m ρ c (Proc.devRef .tc main_arg8) := by unwritten
    _ = W1 m ρ c (Proc.devRef .tc main_arg8) := by unwritten
    _ = W0 m ρ c (Proc.devRef .tc main_arg8) := by unwritten
    _ = m ((c : Thread nD τ).loc main_arg8) := rfl

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by unwritten
    _ = W3 m ρ c (Proc.devRef .tc main_arg10) := by unwritten
    _ = W2 m ρ c (Proc.devRef .tc main_arg10) := by unwritten
    _ = W1 m ρ c (Proc.devRef .tc main_arg10) := by unwritten
    _ = W0 m ρ c (Proc.devRef .tc main_arg10) := by unwritten
    _ = m ((c : Thread nD τ).loc main_arg10) := rfl

theorem V7_arg0 (c : Dev nD) : V7 m ρ c main_arg0 = m ((c : Thread nD τ).loc main_arg0) :=
  calc W7 m ρ c (Proc.devRef .tc main_arg0)
    _ = W6 m ρ c (Proc.devRef .tc main_arg0) := by unwritten
    _ = m ((c : Thread nD τ).loc main_arg0) := W6_arg0 m ρ c

theorem V7_arg7 (c : Dev nD) : V7 m ρ c main_arg7 = m ((c : Thread nD τ).loc main_arg7) :=
  calc W7 m ρ c (Proc.devRef .tc main_arg7)
    _ = W6 m ρ c (Proc.devRef .tc main_arg7) := by unwritten
    _ = m ((c : Thread nD τ).loc main_arg7) := W6_arg7 m ρ c

theorem V7_arg9 (c : Dev nD) : V7 m ρ c main_arg9 = m ((c : Thread nD τ).loc main_arg9) :=
  calc W7 m ρ c (Proc.devRef .tc main_arg9)
    _ = W6 m ρ c (Proc.devRef .tc main_arg9) := by unwritten
    _ = m ((c : Thread nD τ).loc main_arg9) := W6_arg9 m ρ c

/-! ## The update network's biases as rows -/

theorem after_v15 (X : Valuation τ sig (Elt F)) :
    StableHlo.after hostOps1 X (Proc.devRef .tc main_v15)
      = shapeCast S1x64 (X (Proc.devRef .tc main_arg8)) shapeCasts_S64_S1x64 := by
  after_results
  rfl

theorem after_v16 (X : Valuation τ sig (Elt F)) :
    StableHlo.after hostOps1 X (Proc.devRef .tc main_v16)
      = shapeCast S1x64 (X (Proc.devRef .tc main_arg10)) shapeCasts_S64_S1x64 := by
  after_results
  rfl

theorem V7_v15_apply (c : Dev nD) (k : Fin 64) :
    V7 m ρ c main_v15 (ix2 (0 : Fin 1) k) = m ((c : Thread nD τ).loc main_arg8) (ix1 k) := by
  refine (congrFun (after_v15 (W6 m ρ c)) (ix2 (0 : Fin 1) k)).trans ?_
  refine (shapeCast_apply (s := S64) (t := S1x64) _ shapeCasts_S64_S1x64 (ix2 (0 : Fin 1) k) (ix1 k) ?_).trans ?_
  · rw [Shape.rowMajor_val_two, Shape.rowMajor_val_one]
    show k.val = 0 * 64 + k.val
    omega
  · exact congrFun (W6_arg8 m ρ c) (ix1 k)

theorem V7_v16_apply (c : Dev nD) (k : Fin 64) :
    V7 m ρ c main_v16 (ix2 (0 : Fin 1) k) = m ((c : Thread nD τ).loc main_arg10) (ix1 k) := by
  refine (congrFun (after_v16 (W6 m ρ c)) (ix2 (0 : Fin 1) k)).trans ?_
  refine (shapeCast_apply (s := S64) (t := S1x64) _ shapeCasts_S64_S1x64 (ix2 (0 : Fin 1) k) (ix1 k) ?_).trans ?_
  · rw [Shape.rowMajor_val_two, Shape.rowMajor_val_one]
    show k.val = 0 * 64 + k.val
    omega
  · exact congrFun (W6_arg10 m ρ c) (ix1 k)

end Cert.KernelIdeal.Val

end
-- ==== Proof.LibAndReduce.lean ====
/-
  An `and`-reduction of one-bit words that are all 1, from the initial word 1, is 1.

  The library reads a printed `jnp.all` in one direction (`Host.reduce_andi_eq_one`: the result is 1, so every
  word that reduces into it is 1).  This is the other direction, for a mask a program computes and a proof must
  show to be all ones: a left fold by `and` from 1 over words that are all 1 stays 1.  Stated for any shapes and
  axes.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl =>
    foldl_andi_of_all f l _ (andi_eq_one.2 ⟨h, hl a (List.mem_cons_self ..)⟩) (fun n hn => hl n (List.mem_cons_of_mem _ hn))

end IntOp

namespace Host

variable {s t u : Shape} {axes : List (Fin s.rank)}

/-- A `stablehlo.reduce` by `and` from the initial word 1 of an operand that is 1 everywhere is 1 at every index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit (fun i _ => hx i)

end Host

end Idealize.ShloMosaic
-- ==== Proof.Mask.lean ====
/-
  Under the precondition every entry of the edge list is a node number, 0 ≤ i < 100000.  Then the guarded take is
  the plain gather: no index is below zero, so none is wrapped; every wrapped index is within 0 … 99999, so the
  in-range bit is set on every row and the filler is never chosen.
-/
import proofs.«418739_j28887950033284_2_alg».proof.Proof.KDefs
import proofs.«418739_j28887950033284_2_alg».proof.Proof.Gen.KernelIdeal
import proofs.«418739_j28887950033284_2_alg».proof.Pre_finite_inputs
import proofs.«418739_j28887950033284_2_alg».proof.Proof.Gen.Pre_finite_inputs
import proofs.«418739_j28887950033284_2_alg».proof.Proof.LibAndReduce
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.Val

open Cert.KernelIdeal Idealize.ShloMosaic Idealize.ShloMosaic.ValueIdx

variable {F : FTy → Type} [FloatOps F]

/-- The precondition's last conjunct, read: every entry of the edge list lies in 0 … 99999 (as a signed word). -/
theorem inRange_of_pre (x0 : FVec F S100000x64 .f32) (x1 : IVec S2x1600000 32) (x2 : FVec F S1600000x32 .f32)
    (x3 : FVec F S160x64 .f32) (x4 : FVec F S64 .f32) (x5 : FVec F S64x64 .f32) (x6 : FVec F S64 .f32)
    (x7 : FVec F S128x64 .f32) (x8 : FVec F S64 .f32) (x9 : FVec F S64x64 .f32) (x10 : FVec F S64 .f32)
    (h : Cert.Pre_finite_inputs.fn (F := F) x0 x1 x2 x3 x4 x5 x6 x7 x8 x9 x10 = fun _ => 1#1) :
    ∀ i : S2x1600000.Idx, 0 ≤ (x1 i).toInt ∧ (x1 i).toInt < 100000 := by
  intro i
  haveI : Subsingleton Cert.Pre_finite_inputs.S_.Idx := ⟨fun a b => funext fun d => d.elim0⟩
  -- the function's value at its one index is the `and` of the earlier conjuncts with the reduction over the edge list
  have h0 : Cert.Pre_finite_inputs.fn (F := F) x0 x1 x2 x3 x4 x5 x6 x7 x8 x9 x10 ix0 = 1#1 := congrFun h ix0
  obtain ⟨-, h1⟩ := IntOp.andi_eq_one.1 (show IntOp.andi _ _ = 1#1 from h0)
  -- the reduction is 1, so the word it folds in at `i` is 1: both comparisons hold there
  have h2 := Host.reduce_andi_all _ _ _ _ _ h1 i
  obtain ⟨h3, h4⟩ := IntOp.andi_eq_one.1 (show IntOp.andi (IntOp.cmpi .sge (x1 i) 0#32) (IntOp.cmpi .slt (x1 i) 100000#32) = 1#1 from h2)
  have e0 : (0#32 : BitVec 32).toInt = 0 := by decide
  have e1 : (100000#32 : BitVec 32).toInt = 100000 := by decide
  have h5 := IntOp.cmpi_sge.1 h3
  have h6 := IntOp.cmpi_slt.1 h4
  rw [e0] at h5
  rw [e1] at h6
  exact ⟨h5, h6⟩

/-- A row of an edge list in range is in range. -/
theorem srcRow_inRange (x1 : IVec S2x1600000 32) (h : ∀ i : S2x1600000.Idx, 0 ≤ (x1 i).toInt ∧ (x1 i).toInt < 100000) :
    ∀ i : S1600000.Idx, 0 ≤ (srcRow x1 i).toInt ∧ (srcRow x1 i).toInt < 100000 := by
  -- a slice then a reshape: the row's word at `i` is a word of the edge list
  intro i
  unfold srcRow shapeCast extractStridedSlice
  exact h _

theorem tgtRow_inRange (x1 : IVec S2x1600000 32) (h : ∀ i : S2x1600000.Idx, 0 ≤ (x1 i).toInt ∧ (x1 i).toInt < 100000) :
    ∀ i : S1600000.Idx, 0 ≤ (tgtRow x1 i).toInt ∧ (tgtRow x1 i).toInt < 100000 := by
  intro i
  unfold tgtRow shapeCast extractStridedSlice
  exact h _

/-- With no entry below zero nothing is wrapped: each word of the wrapped column is a word of the row itself. -/
theorem wrapCol_eq_row (row : IVec S1600000 32)
    (h : ∀ i : S1600000.Idx, 0 ≤ (row i).toInt ∧ (row i).toInt < 100000) (i : S1600000x1.Idx) :
    ∃ k : S1600000.Idx, wrapCol row i = row k := by
  -- the column at `i` is the select read at the row position `k` that the broadcast keeps
  obtain ⟨k, hk⟩ : ∃ k : S1600000.Idx, wrapCol row i =
      select (cmpi .slt row (broadcastInDim S1600000 ![] Facts₀.bcast_S_S1600000 (constantI S_ 32 0#32)))
        (addi row (broadcastInDim S1600000 ![] Facts₀.bcast_S_S1600000 (constantI S_ 32 100000#32))) row k := ⟨_, rfl⟩
  refine ⟨k, hk.trans ((select_apply _ _ _ _).trans ?_)⟩
  -- `row k` is not below zero, so the comparison's bit is 0 and the select keeps `row k`
  have hz : cmpi .slt row (broadcastInDim S1600000 ![] Facts₀.bcast_S_S1600000 (constantI S_ 32 0#32)) k = 0#1 := by
    refine eq_zero_of_ne_one fun h1 => ?_
    have h2 : (row k).toInt < (0#32 : BitVec 32).toInt := IntOp.cmpi_slt.1 h1
    have h3 : (0#32 : BitVec 32).toInt = 0 := by decide
    have := (h k).1
    omega
  rw [hz, select_zero]

/-- On indices in range the guarded take is the plain gather at the (unchanged) wrapped indices. -/
theorem takeRows_eq_gather (x : FVec F S100000x64 .f32) (row : IVec S1600000 32)
    (h : ∀ i : S1600000.Idx, 0 ≤ (row i).toInt ∧ (row i).toInt < 100000) :
    takeRows x row = Host.gather gather_S100000x64_S1600000x1_S1600000x64_1_0_n_n_0_1_164 x (wrapCol row) := by
  funext j
  -- the mask's bit is 1 everywhere: it is an `and`-reduction, from 1, of words that are all 1
  have hm : takeMask (wrapCol row) j = 1#1 := by
    unfold takeMask broadcastInDim
    refine Host.reduce_andi_of_all _ _ _ _ rfl (fun i => ?_) _
    obtain ⟨k, hk⟩ := wrapCol_eq_row row h i
    show IntOp.andi (IntOp.cmpi .sge (wrapCol row i) 0#32) (IntOp.cmpi .sle (wrapCol row i) 99999#32) = 1#1
    rw [hk]
    have h0 : (0#32 : BitVec 32).toInt = 0 := by decide
    have h9 : (99999#32 : BitVec 32).toInt = 99999 := by decide
    refine IntOp.andi_eq_one.2 ⟨IntOp.cmpi_sge.2 ?_, IntOp.cmpi_sle.2 ?_⟩
    · rw [h0]; exact (h k).1
    · rw [h9]; have := (h k).2; omega
  unfold takeRows
  rw [select_apply, hm, select_one]

end Cert.KernelIdeal.Val

end
-- ==== Proof.KValue.lean ====
/-
  The kernel program's result as one function of its arguments.

  Read backwards from the result: region 1 leaves every node's update network of the node's row and its aggregated
  messages; the aggregated messages are region 0's output added by target node; region 0 leaves every edge's network
  of the gathered source rows, the gathered target rows and the edge's features; and under the precondition every
  index of the edge list is a node number, so each guarded take is the plain gather.  The two changes of float
  format around region 0 are the identity on extended reals.
-/
import proofs.«418739_j28887950033284_2_alg».proof.Proof.Regions
import proofs.«418739_j28887950033284_2_alg».proof.Proof.HostK
import proofs.«418739_j28887950033284_2_alg».proof.Proof.HostArgs
import proofs.«418739_j28887950033284_2_alg».proof.Proof.Mask
import proofs.«418739_j28887950033284_2_alg».proof.Proof.KRun

noncomputable section

namespace Cert.KernelIdeal.Val

open Cert.KernelIdeal Cert.KernelIdeal.Gen Idealize.ShloMosaic Idealize.ShloMosaic.TcCoe Idealize.ShloMosaic.ValueIdx Idealize.SL.Sem

/-- One message-passing layer over the program's arguments: gather, edge network, aggregation, update network. -/
def layer (a0 : FVec Ideal S100000x64 .f32) (a1 : IVec S2x1600000 32) (a2 : FVec Ideal S1600000x32 .f32)
    (a3 : FVec Ideal S160x64 .f32) (a4 : FVec Ideal S64 .f32) (a5 : FVec Ideal S64x64 .f32) (a6 : FVec Ideal S64 .f32)
    (a7 : FVec Ideal S128x64 .f32) (a8 : FVec Ideal S64 .f32) (a9 : FVec Ideal S64x64 .f32) (a10 : FVec Ideal S64 .f32) :
    FVec Ideal S100000x64 .f32 :=
  MsgPass.updArr a0
    (aggregate (F := Ideal) a1
      (MsgPass.edgeArr
        (Host.gather gather_S100000x64_S1600000x1_S1600000x64_1_0_n_n_0_1_164 a0 (wrapCol (srcRow a1)))
        (Host.gather gather_S100000x64_S1600000x1_S1600000x64_1_0_n_n_0_1_164 a0 (wrapCol (tgtRow a1)))
        a2 a3 (fun k => a4 (ix1 k)) a5 (fun k => a6 (ix1 k))))
    a7 (fun k => a8 (ix1 k)) a9 (fun k => a10 (ix1 k))

/-- A narrowing of float format is the identity on extended reals. -/
theorem narrow_id (x : FVec Ideal S1600000x64 .f32) :
    (truncf .bf16 x bitsLt_bf16_f32 : FVec Ideal S1600000x64 .bf16) = x := rfl

/-- A widening of float format is the identity on extended reals. -/
theorem widen_id (x : FVec Ideal S1600000x64 .bf16) :
    (extf .f32 x bitsLt_bf16_f32 : FVec Ideal S1600000x64 .f32) = x := rfl

variable (m : (ℓ : Loc nD τ sig) → Buf (Elt Ideal) ℓ) (ρ : Dev nD → PrngReg)

/-- Under the precondition the result buffer's final contents are the layer of the arguments. -/
theorem result_value (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    W8 m ρ c (Proc.devRef .tc main_v17)
      = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hr := inRange_of_pre _ _ _ _ _ _ _ _ _ _ _ hpre
  have h17 : W8 m ρ c (Proc.devRef .tc main_v17) = (dat1 (V7 m ρ) c).arrAt 6 cfg1.N := W8_arr m ρ c 6
  have h10 : V6 m ρ c main_v10 = (dat0 (V5 m ρ) c).arrAt 7 cfg0.N := (hF0 m ρ c 7).symm
  have b8 : (fun k : Fin 64 => V5 m ρ c main_v8 (ix2 (0 : Fin 1) k)) = fun k => m ((c : Thread nD τ).loc main_arg4) (ix1 k) :=
    funext fun k => V5_v8_apply m ρ c k
  have b9 : (fun k : Fin 64 => V5 m ρ c main_v9 (ix2 (0 : Fin 1) k)) = fun k => m ((c : Thread nD τ).loc main_arg6) (ix1 k) :=
    funext fun k => V5_v9_apply m ρ c k
  have b15 : (fun k : Fin 64 => V7 m ρ c main_v15 (ix2 (0 : Fin 1) k)) = fun k => m ((c : Thread nD τ).loc main_arg8) (ix1 k) :=
    funext fun k => V7_v15_apply m ρ c k
  have b16 : (fun k : Fin 64 => V7 m ρ c main_v16 (ix2 (0 : Fin 1) k)) = fun k => m ((c : Thread nD τ).loc main_arg10) (ix1 k) :=
    funext fun k => V7_v16_apply m ρ c k
  rw [h17, final1 (V7 m ρ) c, V7_arg0, V7_v14, V7_arg7, V7_arg9, b15, b16]
  rw [h10, final0 (V5 m ρ) c, V5_v5, V5_v7, V5_arg2, V5_arg3, V5_arg5, b8, b9]
  rw [takeRows_eq_gather _ _ (srcRow_inRange _ hr), takeRows_eq_gather _ _ (tgtRow_inRange _ hr), narrow_id, narrow_id, widen_id]
  rfl

end Cert.KernelIdeal.Val

end
-- ==== Proof.RefValue.lean ====
/-
  The reference's result, read one host operation at a time.

  Its messages are the edge network of every row of the two gathered arrays and the edge features: the reference
  joins the three arrays along their columns and multiplies once by the whole first weight matrix, which is the
  three-block form because a sum over the joined columns is the sum of the sums over the pieces.  Its result is the
  update network of every node's row and its aggregated messages, by the same regrouping over two pieces.
-/
import proofs.«418739_j28887950033284_2_alg».proof.Proof.Gen.ReferenceIdeal.Run
import proofs.«418739_j28887950033284_2_alg».proof.Proof.Gen.ReferenceIdeal.Read
import proofs.«418739_j28887950033284_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The three-piece join at row e, column a, is the three rows laid end to end. -/
theorem v18_ix2 (x0 : FVec Ideal S100000x64 .f32) (x1 : IVec S2x1600000 32) (x2 : FVec Ideal S1600000x32 .f32)
    (e : Fin 1600000) (a : Fin 160) :
    val_main_v18 (F := Ideal) x0 x1 x2 (ix2 e a)
      = MsgPass.cat3 (fun a => val_main_v10 (F := Ideal) x0 x1 (ix2 e a)) (fun a => val_main_v17 (F := Ideal) x0 x1 (ix2 e a))
          (fun a => x2 (ix2 e a)) a := by
  unfold val_main_v18 MsgPass.cat3
  generalize val_main_v10 (F := Ideal) x0 x1 = g1
  generalize val_main_v17 (F := Ideal) x0 x1 = g2
  by_cases h : a.val < 64
  · rw [dif_pos h]
    refine concatenate_apply_piece 1 _ _ (ix2 e a) 0 (by show (0 : Nat) < 3; omega) S1600000x64 g1 rfl rfl 0 rfl (ix2 e ⟨a.val, h⟩) ?_ ?_
    · intro b hb
      match b with
      | ⟨0, _⟩ => rfl
      | ⟨1, _⟩ => exact absurd rfl hb
    · show 0 + a.val = a.val; omega
  · rw [dif_neg h]
    by_cases h2 : a.val < 128
    · rw [dif_pos h2]
      refine concatenate_apply_piece 1 _ _ (ix2 e a) 1 (by show (1 : Nat) < 3; omega) S1600000x64 g2 rfl rfl 64 rfl (ix2 e ⟨a.val - 64, by omega⟩) ?_ ?_
      · intro b hb
        match b with
        | ⟨0, _⟩ => rfl
        | ⟨1, _⟩ => exact absurd rfl hb
      · show 64 + (a.val - 64) = a.val; omega
    · rw [dif_neg h2]
      refine concatenate_apply_piece 1 _ _ (ix2 e a) 2 (by show (2 : Nat) < 3; omega) S1600000x32 x2 rfl rfl 128 rfl (ix2 e ⟨a.val - 128, by omega⟩) ?_ ?_
      · intro b hb
        match b with
        | ⟨0, _⟩ => rfl
        | ⟨1, _⟩ => exact absurd rfl hb
      · show 128 + (a.val - 128) = a.val; omega

/-- The reference's messages are every edge's network over the two gathered arrays and the edge features. -/
theorem messages_eq (x0 : FVec Ideal S100000x64 .f32) (x1 : IVec S2x1600000 32) (x2 : FVec Ideal S1600000x32 .f32)
    (x3 : FVec Ideal S160x64 .f32) (x4 : FVec Ideal S64 .f32) (x5 : FVec Ideal S64x64 .f32) (x6 : FVec Ideal S64 .f32) :
    val_main_v27 (F := Ideal) x0 x1 x2 x3 x4 x5 x6
      = MsgPass.edgeArr (val_main_v10 (F := Ideal) x0 x1) (val_main_v17 (F := Ideal) x0 x1) x2 x3 (fun k => x4 (ix1 k)) x5
          (fun k => x6 (ix1 k)) := by
  funext i
  obtain ⟨e, q, rfl⟩ : ∃ (e : Fin 1600000) (q : Fin 64), i = ix2 e q := ⟨i 0, i 1, eq_ix2 i⟩
  rw [MsgPass.edgeArr_ix2, ← MsgPass.catRow_cat3]
  rw [val_main_v27_apply, val_main_v24_apply, val_main_v26_apply, val_main_v25_apply]
  have hb2 : idx_main_v25 (idx_main_v26 (ix2 e q)) = ix1 q := funext fun a => by match a with | ⟨0, _⟩ => rfl
  rw [hb2]
  unfold MsgPass.catRow
  show (∑ k : Fin 64, _ * _) + _ = _
  refine congrArg (· + x6 (ix1 q)) (Finset.sum_congr rfl fun k _ => ?_)
  have hl : lidx_main_v24 (ix2 e q) k = ix2 e k := funext fun a => by match a with | ⟨0, _⟩ => rfl | ⟨1, _⟩ => rfl
  have hr : ridx_main_v24 (ix2 e q) k = ix2 k q := funext fun a => by match a with | ⟨0, _⟩ => rfl | ⟨1, _⟩ => rfl
  rw [hl, hr]
  refine congrArg (· * x5 (ix2 k q)) ?_
  rw [val_main_v23_apply, val_main_v22_apply, val_main_v19_apply, val_main_v21_apply, val_main_v20_apply,
    val_main_call0_v0_apply, val_main_call0_cst_apply]
  have hb1 : idx_main_v20 (idx_main_v21 (ix2 e k)) = ix1 k := funext fun a => by match a with | ⟨0, _⟩ => rfl
  rw [hb1]
  unfold MsgPass.catHidden
  show max ((∑ a : Fin 160, _ * _) + _) (Ideal.ofBits .f32 0x00000000#32) = _
  rw [Ideal.ofBits_zero_f32]
  refine congrArg (fun z => max (z + x4 (ix1 k)) 0) (Finset.sum_congr rfl fun a _ => ?_)
  have hl' : lidx_main_v19 (ix2 e k) a = ix2 e a := funext fun b => by match b with | ⟨0, _⟩ => rfl | ⟨1, _⟩ => rfl
  have hr' : ridx_main_v19 (ix2 e k) a = ix2 a k := funext fun b => by match b with | ⟨0, _⟩ => rfl | ⟨1, _⟩ => rfl
  rw [hl', hr', v18_ix2]

/-- The two-piece join at row n, column a, is the node's row and its aggregated row laid end to end. -/
theorem v31_ix2 (x0 : FVec Ideal S100000x64 .f32) (x1 : IVec S2x1600000 32) (x2 : FVec Ideal S1600000x32 .f32)
    (x3 : FVec Ideal S160x64 .f32) (x4 : FVec Ideal S64 .f32) (x5 : FVec Ideal S64x64 .f32) (x6 : FVec Ideal S64 .f32)
    (n : Fin 100000) (a : Fin 128) :
    val_main_v31 (F := Ideal) x0 x1 x2 x3 x4 x5 x6 (ix2 n a)
      = MsgPass.cat2 (fun a => x0 (ix2 n a)) (fun a => val_main_v30 (F := Ideal) x0 x1 x2 x3 x4 x5 x6 (ix2 n a)) a := by
  unfold val_main_v31 MsgPass.cat2
  generalize val_main_v30 (F := Ideal) x0 x1 x2 x3 x4 x5 x6 = g
  by_cases h : a.val < 64
  · rw [dif_pos h]
    refine concatenate_apply_piece 1 _ _ (ix2 n a) 0 (by show (0 : Nat) < 2; omega) S100000x64 x0 rfl rfl 0 rfl (ix2 n ⟨a.val, h⟩) ?_ ?_
    · intro b hb
      match b with
      | ⟨0, _⟩ => rfl
      | ⟨1, _⟩ => exact absurd rfl hb
    · show 0 + a.val = a.val; omega
  · rw [dif_neg h]
    refine concatenate_apply_piece 1 _ _ (ix2 n a) 1 (by show (1 : Nat) < 2; omega) S100000x64 g rfl rfl 64 rfl (ix2 n ⟨a.val - 64, by omega⟩) ?_ ?_
    · intro b hb
      match b with
      | ⟨0, _⟩ => rfl
      | ⟨1, _⟩ => exact absurd rfl hb
    · show 64 + (a.val - 64) = a.val; omega

/-- The reference's result is every node's update network over its row and its aggregated messages. -/
theorem result_eq (x0 : FVec Ideal S100000x64 .f32) (x1 : IVec S2x1600000 32) (x2 : FVec Ideal S1600000x32 .f32)
    (x3 : FVec Ideal S160x64 .f32) (x4 : FVec Ideal S64 .f32) (x5 : FVec Ideal S64x64 .f32) (x6 : FVec Ideal S64 .f32)
    (x7 : FVec Ideal S128x64 .f32) (x8 : FVec Ideal S64 .f32) (x9 : FVec Ideal S64x64 .f32) (x10 : FVec Ideal S64 .f32) :
    val_main_v40 (F := Ideal) x0 x1 x2 x3 x4 x5 x6 x7 x8 x9 x10
      = MsgPass.updArr x0 (val_main_v30 (F := Ideal) x0 x1 x2 x3 x4 x5 x6) x7 (fun k => x8 (ix1 k)) x9 (fun k => x10 (ix1 k)) := by
  funext i
  obtain ⟨n, q, rfl⟩ : ∃ (n : Fin 100000) (q : Fin 64), i = ix2 n q := ⟨i 0, i 1, eq_ix2 i⟩
  rw [MsgPass.updArr_ix2, ← MsgPass.catRow_cat2]
  rw [val_main_v40_apply, val_main_v37_apply, val_main_v39_apply, val_main_v38_apply]
  have hb2 : idx_main_v38 (idx_main_v39 (ix2 n q)) = ix1 q := funext fun a => by match a with | ⟨0, _⟩ => rfl
  rw [hb2]
  unfold MsgPass.catRow
  show (∑ k : Fin 64, _ * _) + _ = _
  refine congrArg (· + x10 (ix1 q)) (Finset.sum_congr rfl fun k _ => ?_)
  have hl : lidx_main_v37 (ix2 n q) k = ix2 n k := funext fun a => by match a with | ⟨0, _⟩ => rfl | ⟨1, _⟩ => rfl
  have hr : ridx_main_v37 (ix2 n q) k = ix2 k q := funext fun a => by match a with | ⟨0, _⟩ => rfl | ⟨1, _⟩ => rfl
  rw [hl, hr]
  refine congrArg (· * x9 (ix2 k q)) ?_
  rw [val_main_v36_apply, val_main_v35_apply, val_main_v32_apply, val_main_v34_apply, val_main_v33_apply,
    val_main_call1_v0_apply, val_main_call1_cst_apply]
  have hb1 : idx_main_v33 (idx_main_v34 (ix2 n k)) = ix1 k := funext fun a => by match a with | ⟨0, _⟩ => rfl
  rw [hb1]
  unfold MsgPass.catHidden
  show max ((∑ a : Fin 128, _ * _) + _) (Ideal.ofBits .f32 0x00000000#32) = _
  rw [Ideal.ofBits_zero_f32]
  refine congrArg (fun z => max (z + x8 (ix1 k)) 0) (Finset.sum_congr rfl fun a _ => ?_)
  have hl' : lidx_main_v32 (ix2 n k) a = ix2 n a := funext fun b => by match b with | ⟨0, _⟩ => rfl | ⟨1, _⟩ => rfl
  have hr' : ridx_main_v32 (ix2 n k) a = ix2 a k := funext fun b => by match b with | ⟨0, _⟩ => rfl | ⟨1, _⟩ => rfl
  rw [hl', hr', v31_ix2]

end Cert.ReferenceIdeal.RefValue

end
-- ==== Proof.Bridge.lean ====
/-
  The reference's gathers and its aggregation are the kernel program's.

  Both programs print the same host operations on the edge list — the two rows of the list, the wrap of an index
  below zero, the gather of node rows at the wrapped indices, the addition of messages into target rows — each over
  its own copy of the dimension records.  The copies have the same fields, so the operations are the same functions.
-/
import proofs.«418739_j28887950033284_2_alg».proof.Proof.Gen.ReferenceIdeal.Read
import proofs.«418739_j28887950033284_2_alg».proof.Proof.Gen.KernelIdeal
import proofs.«418739_j28887950033284_2_alg».proof.Proof.KDefs

noncomputable section

namespace Cert.Bridge

open Idealize.ShloMosaic

variable {F : FTy → Type} [FloatOps F]

/-- The reference's gathered source rows are the plain gather at the kernel program's wrapped source indices. -/
theorem ref_gather_src (x0 : FVec F Cert.ReferenceIdeal.S100000x64 .f32) (x1 : IVec Cert.ReferenceIdeal.S2x1600000 32) :
    Cert.ReferenceIdeal.Read.val_main_v10 (F := F) x0 x1
      = Host.gather Cert.KernelIdeal.gather_S100000x64_S1600000x1_S1600000x64_1_0_n_n_0_1_164 x0
          (Cert.KernelIdeal.Val.wrapCol (Cert.KernelIdeal.Val.srcRow x1)) := rfl

/-- The reference's gathered target rows are the plain gather at the kernel program's wrapped target indices. -/
theorem ref_gather_tgt (x0 : FVec F Cert.ReferenceIdeal.S100000x64 .f32) (x1 : IVec Cert.ReferenceIdeal.S2x1600000 32) :
    Cert.ReferenceIdeal.Read.val_main_v17 (F := F) x0 x1
      = Host.gather Cert.KernelIdeal.gather_S100000x64_S1600000x1_S1600000x64_1_0_n_n_0_1_164 x0
          (Cert.KernelIdeal.Val.wrapCol (Cert.KernelIdeal.Val.tgtRow x1)) := rfl

/-- The reference's aggregation is the kernel program's, of the reference's messages. -/
theorem ref_aggregate (x0 : FVec F Cert.ReferenceIdeal.S100000x64 .f32) (x1 : IVec Cert.ReferenceIdeal.S2x1600000 32)
    (x2 : FVec F Cert.ReferenceIdeal.S1600000x32 .f32) (x3 : FVec F Cert.ReferenceIdeal.S160x64 .f32)
    (x4 : FVec F Cert.ReferenceIdeal.S64 .f32) (x5 : FVec F Cert.ReferenceIdeal.S64x64 .f32) (x6 : FVec F Cert.ReferenceIdeal.S64 .f32) :
    Cert.ReferenceIdeal.Read.val_main_v30 (F := F) x0 x1 x2 x3 x4 x5 x6
      = Cert.KernelIdeal.Val.aggregate x1 (Cert.ReferenceIdeal.Read.val_main_v27 (F := F) x0 x1 x2 x3 x4 x5 x6) := rfl

end Cert.Bridge

end
-- ==== Proof.lean ====
/-
  One message-passing layer of a graph network — gather node rows along the edge list, a two-layer network per
  edge, the messages added into their target nodes, a two-layer network per node — computed by two tiled kernels
  with host operations around them, against a plain array program.

  Over the extended reals the two programs compute the same function.  The kernels split each first-layer matrix
  product by row blocks of the weight matrix (source rows, target rows, edge features; node rows, aggregated
  messages) where the reference multiplies one concatenated row by the whole matrix: a finite sum over the joined
  columns is the sum of the sums over the pieces, a regrouping that holds for every extended real.  The kernels walk
  the edges and the nodes block by block; each block's rows depend only on the same rows of the inputs, and the blocks
  tile the arrays.  The changes of float format around the first kernel are the identity on extended reals.  The one
  place the two programs differ as printed is the gather: the kernel's guarded take replaces a row whose index lies
  outside 0 … 99999 by a filler, the reference's plain gather does not; the precondition says every entry of the edge
  list is a node number, and there the two agree.  The aggregation is the same host operation in both programs and is
  never opened: only its operands are compared.

  The three frames: the two kernel programs' are the generated frame certificates; the reference's is its generated
  run with the result dropped.  The idealization rewrote nothing, so `preserves` has no conjunct.
-/
import proofs.«418739_j28887950033284_2_alg».proof.Defs
import proofs.«418739_j28887950033284_2_alg».proof.Proof.Gen.Kernel
import proofs.«418739_j28887950033284_2_alg».proof.Proof.Gen.Kernel.Skeleton
import proofs.«418739_j28887950033284_2_alg».proof.Proof.Gen.Kernel.Launch
import proofs.«418739_j28887950033284_2_alg».proof.Proof.Gen.Kernel.Points
import proofs.«418739_j28887950033284_2_alg».proof.Proof.Gen.Kernel.Frame
import proofs.«418739_j28887950033284_2_alg».proof.Proof.Gen.KernelIdeal
import proofs.«418739_j28887950033284_2_alg».proof.Proof.Gen.KernelIdeal.Skeleton
import proofs.«418739_j28887950033284_2_alg».proof.Proof.Gen.KernelIdeal.Launch
import proofs.«418739_j28887950033284_2_alg».proof.Proof.Gen.KernelIdeal.Points
import proofs.«418739_j28887950033284_2_alg».proof.Proof.Gen.KernelIdeal.Frame
import proofs.«418739_j28887950033284_2_alg».proof.Proof.Gen.ReferenceIdeal
import proofs.«418739_j28887950033284_2_alg».proof.Proof.Gen.ReferenceIdeal.Run
import proofs.«418739_j28887950033284_2_alg».proof.Proof.Gen.ReferenceIdeal.Read
import proofs.«418739_j28887950033284_2_alg».proof.Proof.Gen.Pre_finite_inputs
import proofs.«418739_j28887950033284_2_alg».proof.Proof.KValue
import proofs.«418739_j28887950033284_2_alg».proof.Proof.RefValue
import proofs.«418739_j28887950033284_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the layer of the arguments in their result
    buffers: the kernel program by its run read backwards through its two regions, the reference by its run read one
    operation at a time. -/
theorem algebraic : Cert.algebraic_KernelIdeal_ReferenceIdeal := by
  intro m ρ m' ρ' hpre hagree
  refine ⟨fun c => Cert.KernelIdeal.Val.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Val.result_value m ρ c (hpre c)), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [e0, e1, e2, e3, e4, e5, e6, e7, e8, e9, e10, Cert.ReferenceIdeal.Read.val_main_v40_eq,
      Cert.ReferenceIdeal.RefValue.result_eq, Cert.Bridge.ref_aggregate, Cert.ReferenceIdeal.RefValue.messages_eq,
      Cert.Bridge.ref_gather_src, Cert.Bridge.ref_gather_tgt]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
